-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S100000x64 : Shape := ⟨2, ![100000, 64]⟩
abbrev S1x64 : Shape := ⟨2, ![1, 64]⟩
abbrev S100000 : Shape := ⟨1, ![100000]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1x64 : S_.BroadcastsInDim S1x64 (![] : Fin 0 → Fin S1x64.rank)
  reducesTo_S1x64_S_d0_1 : S1x64.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg8 : FVec F S100000 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S100000 .f32 := Host.absf main_arg8
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  main_v23

def fn {F : FTy → Type} [FloatOps F] (main_arg0 : IVec S4000000 32) (main_arg1 : IVec S4000000 32) (main_arg2 : FVec F S4000000 .f32) (main_arg3 : IVec S4000000 32) (main_arg4 : IVec S4000000 32) (main_arg5 : FVec F S100000x64 .f32) (main_arg6 : FVec F S1x64 .f32) (main_arg7 : FVec F S100000x64 .f32) (main_arg8 : FVec F S100000 .f32) : IVec S_ 1 :=
  let main_v0 : FVec F S4000000 .f32 := Host.absf main_arg2
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1x64 .f32 := Host.absf main_arg6
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S100000x64 .f32 := Host.absf main_arg7
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg8 main_v13 main_v16
-- ==== Kernel.lean ====
abbrev S4000000 : Shape := ⟨1, ![4000000]⟩
abbrev S100000x64 : Shape := ⟨2, ![100000, 64]⟩
abbrev S1x64 : Shape := ⟨2, ![1, 64]⟩
abbrev S100000 : Shape := ⟨1, ![100000]⟩
abbrev S_ : Shape := ⟨0, ![]⟩
abbrev S4005888 : Shape := ⟨1, ![4005888]⟩
abbrev S4005888x1 : Shape := ⟨2, ![4005888, 1]⟩
abbrev S4005888x64 : Shape := ⟨2, ![4005888, 64]⟩
abbrev S8192x1 : Shape := ⟨2, ![8192, 1]⟩
abbrev S8192x64 : Shape := ⟨2, ![8192, 64]⟩
abbrev S20000x64 : Shape := ⟨2, ![20000, 64]⟩
abbrev S4014080 : Shape := ⟨1, ![4014080]⟩
abbrev S4014080x1 : Shape := ⟨2, ![4014080, 1]⟩
abbrev S4014080x64 : Shape := ⟨2, ![4014080, 64]⟩
abbrev S16384x64 : Shape := ⟨2, ![16384, 64]⟩
abbrev S16384 : Shape := ⟨1, ![16384]⟩

abbrev nBuf : Space → Nat
  | .hbm => 69
  | .vmem => 17
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S100000x64, .f32⟩
  | .hbm, ⟨6, _⟩ => ⟨S1x64, .f32⟩
  | .hbm, ⟨7, _⟩ => ⟨S100000x64, .f32⟩
  | .hbm, ⟨8, _⟩ => ⟨S100000, .f32⟩
  | .hbm, ⟨9, _⟩ => ⟨S_, .i32⟩
  | .hbm, ⟨10, _⟩ => ⟨S_, .i32⟩
  | .hbm, ⟨11, _⟩ => ⟨S4005888, .i32⟩
  | .hbm, ⟨12, _⟩ => ⟨S_, .i32⟩
  | .hbm, ⟨13, _⟩ => ⟨S_, .i32⟩
  | .hbm, ⟨14, _⟩ => ⟨S4005888, .i32⟩
  | .hbm, ⟨15, _⟩ => ⟨S_, .i32⟩
  | .hbm, ⟨16, _⟩ => ⟨S_, .f32⟩
  | .hbm, ⟨17, _⟩ => ⟨S4005888, .f32⟩
  | .hbm, ⟨18, _⟩ => ⟨S_, .i32⟩
  | .hbm, ⟨19, _⟩ => ⟨S4005888, .i32⟩
  | .hbm, ⟨20, _⟩ => ⟨S4005888, .i1⟩
  | .hbm, ⟨21, _⟩ => ⟨S_, .i32⟩
  | .hbm, ⟨22, _⟩ => ⟨S4005888, .i32⟩
  | .hbm, ⟨23, _⟩ => ⟨S4005888, .i32⟩
  | .hbm, ⟨24, _⟩ => ⟨S4005888, .i32⟩
  | .hbm, ⟨25, _⟩ => ⟨S4005888x1, .i32⟩
  | .hbm, ⟨26, _⟩ => ⟨S4005888x64, .f32⟩
  | .hbm, ⟨27, _⟩ => ⟨S4005888x1, .f32⟩
  | .hbm, ⟨28, _⟩ => ⟨S4005888x64, .f32⟩
  | .hbm, ⟨29, _⟩ => ⟨S_, .f32⟩
  | .hbm, ⟨30, _⟩ => ⟨S20000x64, .f32⟩
  | .hbm, ⟨31, _⟩ => ⟨S4005888x1, .i32⟩
  | .hbm, ⟨32, _⟩ => ⟨S20000x64, .f32⟩
  | .hbm, ⟨33, _⟩ => ⟨S20000x64, .f32⟩
  | .hbm, ⟨34, _⟩ => ⟨S_, .i32⟩
  | .hbm, ⟨35, _⟩ => ⟨S_, .i32⟩
  | .hbm, ⟨36, _⟩ => ⟨S4014080, .i32⟩
  | .hbm, ⟨37, _⟩ => ⟨S_, .i32⟩
  | .hbm, ⟨38, _⟩ => ⟨S_, .i32⟩
  | .hbm, ⟨39, _⟩ => ⟨S4014080, .i32⟩
  | .hbm, ⟨40, _⟩ => ⟨S_, .i32⟩
  | .hbm, ⟨41, _⟩ => ⟨S4014080, .i32⟩
  | .hbm, ⟨42, _⟩ => ⟨S4014080, .i1⟩
  | .hbm, ⟨43, _⟩ => ⟨S_, .i32⟩
  | .hbm, ⟨44, _⟩ => ⟨S4014080, .i32⟩
  | .hbm, ⟨45, _⟩ => ⟨S4014080, .i32⟩
  | .hbm, ⟨46, _⟩ => ⟨S4014080, .i32⟩
  | .hbm, ⟨47, _⟩ => ⟨S4014080x1, .i32⟩
  | .hbm, ⟨48, _⟩ => ⟨S4014080x64, .f32⟩
  | .hbm, ⟨49, _⟩ => ⟨S_, .i32⟩
  | .hbm, ⟨50, _⟩ => ⟨S4014080, .i32⟩
  | .hbm, ⟨51, _⟩ => ⟨S4014080, .i1⟩
  | .hbm, ⟨52, _⟩ => ⟨S_, .i32⟩
  | .hbm, ⟨53, _⟩ => ⟨S4014080, .i32⟩
  | .hbm, ⟨54, _⟩ => ⟨S4014080, .i32⟩
  | .hbm, ⟨55, _⟩ => ⟨S4014080, .i32⟩
  | .hbm, ⟨56, _⟩ => ⟨S4014080x1, .i32⟩
  | .hbm, ⟨57, _⟩ => ⟨S4014080x64, .f32⟩
  | .hbm, ⟨58, _⟩ => ⟨S_, .i32⟩
  | .hbm, ⟨59, _⟩ => ⟨S4014080, .i32⟩
  | .hbm, ⟨60, _⟩ => ⟨S4014080, .i1⟩
  | .hbm, ⟨61, _⟩ => ⟨S_, .i32⟩
  | .hbm, ⟨62, _⟩ => ⟨S4014080, .i32⟩
  | .hbm, ⟨63, _⟩ => ⟨S4014080, .i32⟩
  | .hbm, ⟨64, _⟩ => ⟨S4014080, .i32⟩
  | .hbm, ⟨65, _⟩ => ⟨S4014080x1, .i32⟩
  | .hbm, ⟨66, _⟩ => ⟨S4014080, .f32⟩
  | .hbm, ⟨67, _⟩ => ⟨S4014080, .f32⟩
  | .hbm, ⟨68, _⟩ => ⟨S4000000, .f32⟩
  | .local _ .vmem, ⟨0, _⟩ => ⟨S8192x1, .f32⟩
  | .local _ .vmem, ⟨1, _⟩ => ⟨S8192x1, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S20000x64, .f32⟩
  | .local _ .vmem, ⟨7, _⟩ => ⟨S1x64, .f32⟩
  | .local _ .vmem, ⟨8, _⟩ => ⟨S20000x64, .f32⟩
  | .local _ .vmem, ⟨9, _⟩ => ⟨S16384x64, .f32⟩
  | .local _ .vmem, ⟨10, _⟩ => ⟨S16384x64, .f32⟩
  | .local _ .vmem, ⟨11, _⟩ => ⟨S16384x64, .f32⟩
  | .local _ .vmem, ⟨12, _⟩ => ⟨S16384x64, .f32⟩
  | .local _ .vmem, ⟨13, _⟩ => ⟨S16384, .f32⟩
  | .local _ .vmem, ⟨14, _⟩ => ⟨S16384, .f32⟩
  | .local _ .vmem, ⟨15, _⟩ => ⟨S16384, .f32⟩
  | .local _ .vmem, ⟨16, _⟩ => ⟨S16384, .f32⟩
  | _, _ => ⟨S4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_v3 : Ref sig .tc := ⟨.hbm, 19, rfl⟩
abbrev main_v4 : Ref sig .tc := ⟨.hbm, 20, rfl⟩
abbrev main_c_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_call3_v0 : Ref sig .tc := ⟨.hbm, 35, rfl⟩
abbrev main_v16 : Ref sig .tc := ⟨.hbm, 36, rfl⟩
abbrev main_c_5 : Ref sig .tc := ⟨.hbm, 37, rfl⟩
abbrev main_call4_v0 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_c_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_c_9 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_10 : Ref sig .tc := ⟨.hbm, 58, rfl⟩
abbrev main_v32 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S20000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S20000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![245], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S16384x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S16384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  pads_S4000000_S4005888_058880 : S4000000.Pads (![0] : Fin 1 → Nat) ![5888] ![0] S4005888
  h_S_ : 0 < S_.numel
  bcast_S_S4005888 : S_.BroadcastsInDim S4005888 (![] : Fin 0 → Fin S4005888.rank)
  bcast_S4005888_S4005888x1_0 : S4005888.BroadcastsInDim S4005888x1 (![0] : Fin 1 → Fin S4005888x1.rank)
  shapeCasts_S4005888_S4005888x1 : S4005888.ShapeCasts S4005888x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S8192x1_S8192x64 : S8192x1.Broadcasts S8192x64
  bcast_S_S20000x64 : S_.BroadcastsInDim S20000x64 (![] : Fin 0 → Fin S20000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  pads_S4000000_S4014080_0140800 : S4000000.Pads (![0] : Fin 1 → Nat) ![14080] ![0] S4014080
  bcast_S_S4014080 : S_.BroadcastsInDim S4014080 (![] : Fin 0 → Fin S4014080.rank)
  bcast_S4014080_S4014080x1_0 : S4014080.BroadcastsInDim S4014080x1 (![0] : Fin 1 → Fin S4014080x1.rank)
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  inb_S16384_S16384_0 : ∀ a, (![0] : Fin 1 → Nat) a + S16384.size a ≤ S16384.size a
  h_S16384 : 0 < S16384.numel
  shapeCasts_S16384_S16384 : S16384.ShapeCasts S16384
  slices_S4014080_S4000000_0 : S4014080.Slices ![0] S4000000
  gather_S100000x64_S4005888x1_S4005888x64_1_0_n_n_0_1_164_wf : GatherDims.WF S100000x64 S4005888x1 S4005888x64 [1] [0] [] [0] [] 1 ![1, 64]
  scatter_S20000x64_S4005888x1_S4005888x64_1_0_0_1_wf : ScatterDims.WF S20000x64 S4005888x1 S4005888x64 [1] [0] [0] 1
  gather_S20000x64_S4014080x1_S4014080x64_1_0_n_n_0_1_164_wf : GatherDims.WF S20000x64 S4014080x1 S4014080x64 [1] [0] [] [0] [] 1 ![1, 64]
  gather_S100000x64_S4014080x1_S4014080x64_1_0_n_n_0_1_164_wf : GatherDims.WF S100000x64 S4014080x1 S4014080x64 [1] [0] [] [0] [] 1 ![1, 64]
  gather_S100000_S4014080x1_S4014080_n_0_n_n_0_1_1_wf : GatherDims.WF S100000 S4014080x1 S4014080 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S4005888x1.size a
  hwx0_0 : ∀ i : grid0.Coords, EltTy.bits .f32 = 32 ∨ (Rect.block (s := S4005888x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S4005888x64.size a
  hwx0_1 : ∀ i : grid0.Coords, EltTy.bits .f32 = 32 ∨ (Rect.block (s := S4005888x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S4005888x64.size a
  hwx0_2 : ∀ i : grid0.Coords, EltTy.bits .f32 = 32 ∨ (Rect.block (s := S4005888x64) S8192x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S20000x64.size a
  hwx1_0 : ∀ i : grid1.Coords, EltTy.bits .f32 = 32 ∨ (Rect.block (s := S20000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S20000x64.size a
  hwx1_2 : ∀ i : grid1.Coords, EltTy.bits .f32 = 32 ∨ (Rect.block (s := S20000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x64.size a ≤ S4014080x64.size a
  hwx2_0 : ∀ i : grid2.Coords, EltTy.bits .f32 = 32 ∨ (Rect.block (s := S4014080x64) S16384x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S4014080x64.size a
  hwx2_1 : ∀ i : grid2.Coords, EltTy.bits .f32 = 32 ∨ (Rect.block (s := S4014080x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384.size a ≤ S4014080.size a
  hwx2_2 : ∀ i : grid2.Coords, EltTy.bits .f32 = 32 ∨ (Rect.block (s := S4014080) S16384.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16384.size a ≤ S4014080.size a
  hwx2_3 : ∀ i : grid2.Coords, EltTy.bits .f32 = 32 ∨ (Rect.block (s := S4014080) S16384.size (cc2_transform_3 i) (hinb2_3 i)).WholeWords (EltTy.packing .f32)

variable [Facts₀]

def gather_S100000x64_S4005888x1_S4005888x64_1_0_n_n_0_1_164 : GatherDims S100000x64 S4005888x1 S4005888x64 where
  offsetDims := [1]
  collapsedSliceDims := [0]
  operandBatchingDims := []
  startIndicesBatchingDims := []
  startIndexMap := [0]
  indexVectorDim := 1
  sliceSizes := ![1, 64]
  wf := gather_S100000x64_S4005888x1_S4005888x64_1_0_n_n_0_1_164_wf
def scatter_S20000x64_S4005888x1_S4005888x64_1_0_0_1 : ScatterDims S20000x64 S4005888x1 S4005888x64 where
  updateWindowDims := [1]
  insertedWindowDims := [0]
  scatterDimsToOperandDims := [0]
  indexVectorDim := 1
  wf := scatter_S20000x64_S4005888x1_S4005888x64_1_0_0_1_wf
def gather_S20000x64_S4014080x1_S4014080x64_1_0_n_n_0_1_164 : GatherDims S20000x64 S4014080x1 S4014080x64 where
  offsetDims := [1]
  collapsedSliceDims := [0]
  operandBatchingDims := []
  startIndicesBatchingDims := []
  startIndexMap := [0]
  indexVectorDim := 1
  sliceSizes := ![1, 64]
  wf := gather_S20000x64_S4014080x1_S4014080x64_1_0_n_n_0_1_164_wf
def gather_S100000x64_S4014080x1_S4014080x64_1_0_n_n_0_1_164 : GatherDims S100000x64 S4014080x1 S4014080x64 where
  offsetDims := [1]
  collapsedSliceDims := [0]
  operandBatchingDims := []
  startIndicesBatchingDims := []
  startIndexMap := [0]
  indexVectorDim := 1
  sliceSizes := ![1, 64]
  wf := gather_S100000x64_S4014080x1_S4014080x64_1_0_n_n_0_1_164_wf
def gather_S100000_S4014080x1_S4014080_n_0_n_n_0_1_1 : GatherDims S100000 S4014080x1 S4014080 where
  offsetDims := []
  collapsedSliceDims := [0]
  operandBatchingDims := []
  startIndicesBatchingDims := []
  startIndexMap := [0]
  indexVectorDim := 1
  sliceSizes := ![1]
  wf := gather_S100000_S4014080x1_S4014080_n_0_n_n_0_1_1_wf

abbrev win0_0 : Pipeline.Window sig grid0 :=
  Pipeline.Window.ofSpec (Memref.whole main_v10) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S20000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S20000x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S16384x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S16384x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S16384.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S16384.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4000000 : Shape := ⟨1, ![4000000]⟩
abbrev S100000x64 : Shape := ⟨2, ![100000, 64]⟩
abbrev S1x64 : Shape := ⟨2, ![1, 64]⟩
abbrev S100000 : Shape := ⟨1, ![100000]⟩
abbrev S4000000x1 : Shape := ⟨2, ![4000000, 1]⟩
abbrev S_ : Shape := ⟨0, ![]⟩
abbrev S4000000x64 : Shape := ⟨2, ![4000000, 64]⟩
abbrev S20000x64 : Shape := ⟨2, ![20000, 64]⟩

abbrev nBuf : Space → Nat
  | .hbm => 66
  | .vmem => 0
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S100000x64, .f32⟩
  | .hbm, ⟨6, _⟩ => ⟨S1x64, .f32⟩
  | .hbm, ⟨7, _⟩ => ⟨S100000x64, .f32⟩
  | .hbm, ⟨8, _⟩ => ⟨S100000, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S20000x64, .f32⟩
  | .hbm, ⟨23, _⟩ => ⟨S4000000x1, .i32⟩
  | .hbm, ⟨24, _⟩ => ⟨S20000x64, .f32⟩
  | .hbm, ⟨25, _⟩ => ⟨S20000x64, .f32⟩
  | .hbm, ⟨26, _⟩ => ⟨S20000x64, .f32⟩
  | .hbm, ⟨27, _⟩ => ⟨S20000x64, .f32⟩
  | .hbm, ⟨28, _⟩ => ⟨S20000x64, .f32⟩
  | .hbm, ⟨29, _⟩ => ⟨S_, .f32⟩
  | .hbm, ⟨30, _⟩ => ⟨S20000x64, .f32⟩
  | .hbm, ⟨31, _⟩ => ⟨S20000x64, .f32⟩
  | .hbm, ⟨32, _⟩ => ⟨S_, .f32⟩
  | .hbm, ⟨33, _⟩ => ⟨S20000x64, .f32⟩
  | .hbm, ⟨34, _⟩ => ⟨S20000x64, .f32⟩
  | .hbm, ⟨35, _⟩ => ⟨S_, .i32⟩
  | .hbm, ⟨36, _⟩ => ⟨S4000000, .i32⟩
  | .hbm, ⟨37, _⟩ => ⟨S4000000, .i1⟩
  | .hbm, ⟨38, _⟩ => ⟨S_, .i32⟩
  | .hbm, ⟨39, _⟩ => ⟨S4000000, .i32⟩
  | .hbm, ⟨40, _⟩ => ⟨S4000000, .i32⟩
  | .hbm, ⟨41, _⟩ => ⟨S4000000, .i32⟩
  | .hbm, ⟨42, _⟩ => ⟨S4000000x1, .i32⟩
  | .hbm, ⟨43, _⟩ => ⟨S4000000x64, .f32⟩
  | .hbm, ⟨44, _⟩ => ⟨S_, .i32⟩
  | .hbm, ⟨45, _⟩ => ⟨S4000000, .i32⟩
  | .hbm, ⟨46, _⟩ => ⟨S4000000, .i1⟩
  | .hbm, ⟨47, _⟩ => ⟨S_, .i32⟩
  | .hbm, ⟨48, _⟩ => ⟨S4000000, .i32⟩
  | .hbm, ⟨49, _⟩ => ⟨S4000000, .i32⟩
  | .hbm, ⟨50, _⟩ => ⟨S4000000, .i32⟩
  | .hbm, ⟨51, _⟩ => ⟨S4000000x1, .i32⟩
  | .hbm, ⟨52, _⟩ => ⟨S4000000x64, .f32⟩
  | .hbm, ⟨53, _⟩ => ⟨S4000000x64, .f32⟩
  | .hbm, ⟨54, _⟩ => ⟨S_, .f32⟩
  | .hbm, ⟨55, _⟩ => ⟨S4000000, .f32⟩
  | .hbm, ⟨56, _⟩ => ⟨S_, .i32⟩
  | .hbm, ⟨57, _⟩ => ⟨S4000000, .i32⟩
  | .hbm, ⟨58, _⟩ => ⟨S4000000, .i1⟩
  | .hbm, ⟨59, _⟩ => ⟨S_, .i32⟩
  | .hbm, ⟨60, _⟩ => ⟨S4000000, .i32⟩
  | .hbm, ⟨61, _⟩ => ⟨S4000000, .i32⟩
  | .hbm, ⟨62, _⟩ => ⟨S4000000, .i32⟩
  | .hbm, ⟨63, _⟩ => ⟨S4000000x1, .i32⟩
  | .hbm, ⟨64, _⟩ => ⟨S4000000, .f32⟩
  | .hbm, ⟨65, _⟩ => ⟨S4000000, .f32⟩
  | _, _ => ⟨S4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S20000x64 : S_.BroadcastsInDim S20000x64 (![] : Fin 0 → Fin S20000x64.rank)
  bcast_S1x64_S20000x64_0_1 : S1x64.BroadcastsInDim S20000x64 (![0, 1] : Fin 2 → Fin S20000x64.rank)
  reducesTo_S4000000x64_S4000000_d1 : S4000000x64.ReducesTo [1] S4000000
  h_S_ : 0 < S_.numel
  gather_S100000x64_S4000000x1_S4000000x64_1_0_n_n_0_1_164_wf : GatherDims.WF S100000x64 S4000000x1 S4000000x64 [1] [0] [] [0] [] 1 ![1, 64]
  scatter_S20000x64_S4000000x1_S4000000x64_1_0_0_1_wf : ScatterDims.WF S20000x64 S4000000x1 S4000000x64 [1] [0] [0] 1
  gather_S20000x64_S4000000x1_S4000000x64_1_0_n_n_0_1_164_wf : GatherDims.WF S20000x64 S4000000x1 S4000000x64 [1] [0] [] [0] [] 1 ![1, 64]
  gather_S100000_S4000000x1_S4000000_n_0_n_n_0_1_1_wf : GatherDims.WF S100000 S4000000x1 S4000000 [] [0] [] [0] [] 1 ![1]

variable [Facts₀]

def gather_S100000x64_S4000000x1_S4000000x64_1_0_n_n_0_1_164 : GatherDims S100000x64 S4000000x1 S4000000x64 where
  offsetDims := [1]
  collapsedSliceDims := [0]
  operandBatchingDims := []
  startIndicesBatchingDims := []
  startIndexMap := [0]
  indexVectorDim := 1
  sliceSizes := ![1, 64]
  wf := gather_S100000x64_S4000000x1_S4000000x64_1_0_n_n_0_1_164_wf
def scatter_S20000x64_S4000000x1_S4000000x64_1_0_0_1 : ScatterDims S20000x64 S4000000x1 S4000000x64 where
  updateWindowDims := [1]
  insertedWindowDims := [0]
  scatterDimsToOperandDims := [0]
  indexVectorDim := 1
  wf := scatter_S20000x64_S4000000x1_S4000000x64_1_0_0_1_wf
def gather_S20000x64_S4000000x1_S4000000x64_1_0_n_n_0_1_164 : GatherDims S20000x64 S4000000x1 S4000000x64 where
  offsetDims := [1]
  collapsedSliceDims := [0]
  operandBatchingDims := []
  startIndicesBatchingDims := []
  startIndexMap := [0]
  indexVectorDim := 1
  sliceSizes := ![1, 64]
  wf := gather_S20000x64_S4000000x1_S4000000x64_1_0_n_n_0_1_164_wf
def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf

class Facts : Prop extends Facts₀ where

variable [Facts]
-- ==== Proof.AsReal.lean ====
/-
  A buffer's contents at the ideal instance, read as the function from the indices of a named shape to the
  extended reals that it is. The argument is checked against that function type, so the arithmetic of the
  extended reals is found on what it returns.
-/
import Idealize.ShloMosaic.PureOps.Ideal

namespace Cert

open Idealize.ShloMosaic

/-- A float array at the ideal instance, as a function from the indices of the shape `S` to the extended reals. -/
abbrev asE (S : Shape) (f : S.Idx → EReal) : S.Idx → EReal := f

/-- An integer array of 32-bit words, as a function from the indices of the shape `S` to the words. -/
abbrev asW (S : Shape) (f : S.Idx → BitVec 32) : S.Idx → BitVec 32 := f

end Cert
-- ==== Proof.Region0.lean ====
/-
  Region 0 of the program scales an array row by row. The column s of shape [4005888×1] and the array x of
  shape [4005888×64] are cut into 489 blocks of 8192 consecutive rows; grid point t is handed rows
  8192·t … 8192·t + 8191 of both, multiplies every entry x[r, q] of its block by the entry s[r, 0] of the same
  row, and writes the products back as rows 8192·t … 8192·t + 8191 of the result. An entry of the result therefore
  depends on one row only: row e lies in the block of point e / 8192, at row e % 8192 of that block, and ends
  holding s[e, 0] · x[e, q]. Since 489 · 8192 = 4005888 the blocks tile the result, so after the last point the
  whole array is the row-wise product.
-/
import proofs.«177247_j43130061586863_1_alg».proof.Proof.Gen.KernelIdeal.Frame
import proofs.«177247_j43130061586863_1_alg».proof.Proof.AsReal
import Idealize.ShloMosaic.Lib.ValueIdx
import Idealize.ShloMosaic.Lib.StableHlo.Predicate
import Idealize.ShloMosaic.PureOps.Ideal.Laws
import Idealize.ShloMosaic.Lib.Pipeline.Value

noncomputable section
namespace Cert.KernelIdeal.Reg0
open Idealize.ShloMosaic Idealize.ShloMosaic.TcCoe Idealize.SL.Sem Cert Cert.KernelIdeal Cert.KernelIdeal.Gen
open Idealize.ShloMosaic.ValueIdx Idealize.ShloMosaic.StableHlo.Predicate

variable (V : (c : Dev nD) → (b : Ref sig .tc) → Buf (Elt Ideal) ((c : Thread nD τ).loc b))

/-- The offsets of a whole-block access are zero on both axes. -/
theorem zero_offsets : (![0, 0] : Fin 2 → Nat) = fun _ => 0 := funext fun a => by fin_cases a <;> rfl

/-- The row-wise product: entry (r, q) is the column's entry of row r times the array's entry (r, q). -/
abbrev rowScaled (s : S4005888x1.Idx → EReal) (x : S4005888x64.Idx → EReal) : S4005888x64.Idx → EReal :=
  fun i => s (ixP (n := 4005888) (i 0)) * x i

/-- The body's product at entry (p, q) of a block: the block's column entry of row p times the block's entry. -/
theorem product_apply (s : S8192x1.Idx → EReal) (x : S8192x64.Idx → EReal) (p : Fin 8192) (q : Fin 64) :
    k0_pay1 (F := Ideal) s x (ix2 p q) = s (ixP p) * x (ix2 p q) := by
  unfold k0_pay1
  rw [shapeCast_self, shapeCast_self, mulf_apply,
    broadcastTo_apply s _ (ix2 p q) (ixP p) (fun a => by match a with | ⟨0, _⟩ => rfl | ⟨1, _⟩ => rfl)]

/-- Every index map of the region sends point t to block (t, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A point's number is below 489. -/
theorem point_lt (t : Fin cfg0.N) : t.val < 489 := lt_of_lt_of_eq t.isLt N_0

/-- Row p of point t's block is row 8192·t + p of the arrays. -/
theorem row_lt (t : Fin cfg0.N) (p : Fin 8192) : t.val * 8192 + p.val < 4005888 := by
  have := point_lt t; have := p.isLt; omega

/-- Entry (p, 0) of the column's block at point t is entry (8192·t + p, 0) of the column. -/
theorem column_block_entry (t : Fin cfg0.N) (p : Fin 8192) :
    ((cfg0.win 0).blk t).view.emb (ixP p) = ixP (n := 4005888) ⟨t.val * 8192 + p.val, row_lt t p⟩ := by
  obtain ⟨a0, a1, -, -, -, -⟩ := block_index t
  funext a; apply Fin.ext
  match a with
  | ⟨0, _⟩ => show win0_0.index t (0 : Fin 2) * 8192 + 1 * p.val = t.val * 8192 + p.val; omega
  | ⟨1, _⟩ => show win0_0.index t (1 : Fin 2) * 1 + 1 * 0 = 0; omega

/-- Entry (p, q) of the array's block at point t is entry (8192·t + p, q) of the array. -/
theorem array_block_entry (t : Fin cfg0.N) (p : Fin 8192) (q : Fin 64) :
    ((cfg0.win 1).blk t).view.emb (ix2 p q) = ix2 (n0 := 4005888) ⟨t.val * 8192 + p.val, row_lt t p⟩ q := by
  obtain ⟨-, -, b0, b1, -, -⟩ := block_index t
  funext a; apply Fin.ext
  match a with
  | ⟨0, _⟩ => show win0_1.index t (0 : Fin 2) * 8192 + 1 * p.val = t.val * 8192 + p.val; omega
  | ⟨1, _⟩ => show win0_1.index t (1 : Fin 2) * 64 + 1 * q.val = q.val; omega

/-- Entry (p, q) of the result's block at point t is entry (8192·t + p, q) of the result. -/
theorem result_block_entry (t : Fin cfg0.N) (p : Fin 8192) (q : Fin 64) :
    ((cfg0.win 2).blk t).view.emb (ix2 p q) = ix2 (n0 := 4005888) ⟨t.val * 8192 + p.val, row_lt t p⟩ q := by
  obtain ⟨-, -, -, -, o0, o1⟩ := block_index t
  funext a; apply Fin.ext
  match a with
  | ⟨0, _⟩ => show win0_2.index t (0 : Fin 2) * 8192 + 1 * p.val = t.val * 8192 + p.val; omega
  | ⟨1, _⟩ => show win0_2.index t (1 : Fin 2) * 64 + 1 * q.val = q.val; omega

/-- What point t writes back is block t of the row-wise product of the column and the array the region finds. -/
theorem written_block (c : Dev nD) (t : Fin cfg0.N) :
    (dat0 (F := Ideal) V c).flushed 2 t
      = ((cfg0.win 2).blk t).view.read (Elt Ideal) (rowScaled (V c main_v10) (V c main_v9)) := by
  show (cfg0.win 2).cut (grid0.coords t) ((dat0 (F := Ideal) V c).after 2 t) = _
  rw [after0_2]
  unfold out0_2
  rw [View.canon_unit_zero zero_offsets]
  simp only [View.ld_unit_zero (S := S8192x1) zero_offsets, View.ld_unit_zero (S := S8192x64) zero_offsets]
  funext j
  obtain ⟨p, q, rfl⟩ : ∃ (p : Fin 8192) (q : Fin 64), j = ix2 p q := ⟨j 0, j 1, eq_ix2 j⟩
  refine (product_apply _ _ p q).trans ?_
  show asE S4005888x1 (V c main_v10) (((cfg0.win 0).blk t).view.emb (ixP p))
      * asE S4005888x64 (V c main_v9) (((cfg0.win 1).blk t).view.emb (ix2 p q))
    = rowScaled (V c main_v10) (V c main_v9) (((cfg0.win 2).blk t).view.emb (ix2 p q))
  rw [column_block_entry, array_block_entry, result_block_entry]

/-- An index of the result is in point t's block iff each coordinate is in the block's range on its axis. -/
theorem mem_block (t : Fin cfg0.N) (i : S4005888x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v11).slice (win0_2.rect t)).set ↔ _
  rw [View.set_slice_whole, Rect.mem_set_unit]
  exact Iff.rfl

/-- Every entry of the result is in some point's block: row r is in the block of point r / 8192. -/
theorem blocks_cover (i : S4005888x64.Idx) :
    ∃ t : Fin cfg0.N, (cfg0.win 2).flush t = true ∧ i ∈ ((cfg0.win 2).blk t).view.set := by
  have hr : (i 0).val < 4005888 := (i 0).isLt
  have hq : (i 1).val < 64 := (i 1).isLt
  have hN : cfg0.N = 489 := N_0
  refine ⟨⟨(i 0).val / 8192, by rw [hN]; omega⟩, flush0_2 _, ?_⟩
  rw [mem_block]
  obtain ⟨-, -, -, -, o0, o1⟩ := block_index ⟨(i 0).val / 8192, by rw [hN]; omega⟩
  intro a
  match a with
  | ⟨0, _⟩ =>
    show win0_2.index _ (0 : Fin 2) * 8192 ≤ (i 0).val ∧ (i 0).val < win0_2.index _ (0 : Fin 2) * 8192 + 8192
    rw [o0]; show (i 0).val / 8192 * 8192 ≤ (i 0).val ∧ (i 0).val < (i 0).val / 8192 * 8192 + 8192; omega
  | ⟨1, _⟩ =>
    show win0_2.index _ (1 : Fin 2) * 64 ≤ (i 1).val ∧ (i 1).val < win0_2.index _ (1 : Fin 2) * 64 + 64
    rw [o1]; omega

/-- After the last point the result array is the row-wise product of the column and the array. -/
theorem result_array (c : Dev nD) :
    (dat0 (F := Ideal) V c).arrAt 2 cfg0.N = rowScaled (V c main_v10) (V c main_v9) :=
  (dat0 (F := Ideal) V c).arrAt_eq_of_cover 2 (rowScaled (V c main_v10) (V c main_v9))
    (fun t _ => written_block V c t) blocks_cover

theorem final (c : Dev nD) (e : Fin 4005888) (q : Fin 64) :
    asE S4005888x64 ((dat0 (F := Ideal) V c).arrAt 2 cfg0.N) (ix2 e q)
      = asE S4005888x1 (V c main_v10) (ixP e) * asE S4005888x64 (V c main_v9) (ix2 e q) := by
  rw [result_array V c]

end Cert.KernelIdeal.Reg0
end
-- ==== Proof.Region1.lean ====
/-
  Region 1 of the kernel: the logistic function of a [20000×64] array plus a [1×64] row added to every one of its rows.

  The region's grid has one point, and at that point each of the three windows has one block, the whole of its
  array, at block index (0, 0): entry (r, q) of a block sits in its array at row 0 · 20000 + 1 · r (for the row
  window 0 · 1 + 1 · r) and column 0 · 64 + 1 · q, that is at (r, q) itself. So the body reads the two input arrays as
  the region finds them, and the one write-back covers every entry of the output array: the array the region leaves is
  the body's arithmetic of the two whole input arrays. Entry (r, q) of it depends on entry (r, q) of the first input
  and on entry (0, q) of the row only: it is logistic (x (r, q) + b (0, q)).
-/
import proofs.«177247_j43130061586863_1_alg».proof.Proof.Gen.KernelIdeal.Frame
import proofs.«177247_j43130061586863_1_alg».proof.Proof.AsReal
import Idealize.ShloMosaic.Lib.ValueIdx
import Idealize.ShloMosaic.Lib.StableHlo.Predicate
import Idealize.ShloMosaic.PureOps.Ideal.Laws
import Idealize.ShloMosaic.Lib.Pipeline.Value
import Idealize.ShloMosaic.Lib.ValueLayout

noncomputable section
namespace Cert.KernelIdeal.Reg1
open Idealize.ShloMosaic Idealize.ShloMosaic.TcCoe Idealize.SL.Sem Cert Cert.KernelIdeal Cert.KernelIdeal.Gen
open Idealize.ShloMosaic.ValueIdx Idealize.ShloMosaic.StableHlo.Predicate

variable (V : (c : Dev nD) → (b : Ref sig .tc) → Buf (Elt Ideal) ((c : Thread nD τ).loc b))

/-- The body loads and stores its buffers whole: from offset 0 on both axes. -/
theorem zero_offsets : (![0, 0] : Fin 2 → Nat) = fun _ => 0 := funext fun a => by fin_cases a <;> rfl

/-! ## The body's arithmetic at an entry -/

/-- Entry (r, q) of what the body stores, for ANY two loaded blocks `x` [20000×64] and `b` [1×64]: the two shape
    casts change nothing, the sum is taken entry by entry, the one row of `b` is read in column q whatever the row r,
    and the logistic function is applied entry by entry. -/
theorem logistic_bias_apply (x : Vec Ideal S20000x64 .f32) (b : Vec Ideal S1x64 .f32) (r : Fin 20000) (q : Fin 64) :
    asE S20000x64 (k1_pay1 (F := Ideal) x b) (ix2 r q)
      = Ideal.logistic (asE S20000x64 x (ix2 r q) + asE S1x64 b (ix2 (0 : Fin 1) q)) := by
  unfold k1_pay1
  simp only [shapeCast_self]
  show Ideal.logistic (asE S20000x64 x (ix2 r q) + broadcastTo S20000x64 b broadcasts_S1x64_S20000x64 (ix2 r q)) = _
  rw [broadcastTo_1b_ab_apply]

/-! ## The blocks are the whole arrays -/

/-- The [20000×64] input's block at the grid's point is the array itself: its block index is (0, 0), so entry j of
    the block is the array's entry (0 · 20000 + 1 · j₀, 0 · 64 + 1 · j₁) = j. -/
theorem input_block_whole (c : Dev nD) (t : Fin cfg1.N) :
    (iblk1 (F := Ideal) V c 0 t : Vec Ideal S20000x64 .f32) = (V c main_v14 : S20000x64.Idx → EReal) := by
  funext j
  show (V c main_v14 : S20000x64.Idx → EReal) (((cfg1.win 0).blk t).view.emb j) = (V c main_v14 : S20000x64.Idx → EReal) j
  congr 1
  funext a; apply Fin.ext
  match a with
  | ⟨0, _⟩ => show win1_0.index t (0 : Fin 2) * 20000 + 1 * (j 0).val = (j 0).val; rw [show win1_0.index t (0 : Fin 2) = 0 from rfl]; omega
  | ⟨1, _⟩ => show win1_0.index t (1 : Fin 2) * 64 + 1 * (j 1).val = (j 1).val; rw [show win1_0.index t (1 : Fin 2) = 0 from rfl]; omega

/-- The [1×64] row's block at the grid's point is the row itself: block index (0, 0) again, with one row to a block. -/
theorem row_block_whole (c : Dev nD) (t : Fin cfg1.N) :
    (iblk1 (F := Ideal) V c 1 t : Vec Ideal S1x64 .f32) = (V c main_arg6 : S1x64.Idx → EReal) := by
  funext j
  show (V c main_arg6 : S1x64.Idx → EReal) (((cfg1.win 1).blk t).view.emb j) = (V c main_arg6 : S1x64.Idx → EReal) j
  congr 1
  funext a; apply Fin.ext
  match a with
  | ⟨0, _⟩ => show win1_1.index t (0 : Fin 2) * 1 + 1 * (j 0).val = (j 0).val; rw [show win1_1.index t (0 : Fin 2) = 0 from rfl]; omega
  | ⟨1, _⟩ => show win1_1.index t (1 : Fin 2) * 64 + 1 * (j 1).val = (j 1).val; rw [show win1_1.index t (1 : Fin 2) = 0 from rfl]; omega

/-! ## What the point writes back -/

/-- What the grid's point writes back to the output array is the output's block, there, of ONE function of the
    whole array's index: the body's arithmetic of the two input arrays as the region finds them. The body's one
    whole-buffer store leaves its payload of the two whole-buffer loads; the loads are the input arrays (the two lemmas
    above); and the output's block index is (0, 0) too, so entry j of the block is entry j of the array. -/
theorem written_back_eq (c : Dev nD) (t : Fin cfg1.N) :
    (dat1 (F := Ideal) V c).flushed 2 t
      = ((cfg1.win 2).blk t).view.read (Elt Ideal) (k1_pay1 (F := Ideal) (V c main_v14) (V c main_arg6)) := by
  show (cfg1.win 2).cut (grid1.coords t) ((dat1 V c).after 2 t) = _
  rw [after1_2]
  unfold out1_2
  rw [View.canon_unit_zero zero_offsets]
  simp only [View.ld_unit_zero (S := S20000x64) zero_offsets, View.ld_unit_zero (S := S1x64) zero_offsets]
  rw [input_block_whole, row_block_whole]
  funext j
  show k1_pay1 (F := Ideal) (V c main_v14) (V c main_arg6) j
    = k1_pay1 (F := Ideal) (V c main_v14) (V c main_arg6) (((cfg1.win 2).blk t).view.emb j)
  congr 1
  funext a; apply Fin.ext
  match a with
  | ⟨0, _⟩ => show (j 0).val = win1_2.index t (0 : Fin 2) * 20000 + 1 * (j 0).val; rw [show win1_2.index t (0 : Fin 2) = 0 from rfl]; omega
  | ⟨1, _⟩ => show (j 1).val = win1_2.index t (1 : Fin 2) * 64 + 1 * (j 1).val; rw [show win1_2.index t (1 : Fin 2) = 0 from rfl]; omega

/-! ## The one block covers the output array -/

/-- An entry of the output array is in the point's block iff, on each axis, its coordinate lies in the block's range
    there: from block index × block size, for block size coordinates. -/
theorem mem_output_block (t : Fin cfg1.N) (i : S20000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v15).slice (win1_2.rect t)).set ↔ _
  rw [View.set_slice_whole, Rect.mem_set_unit]
  exact Iff.rfl

/-- Every entry of the output array is in the block of the grid's one point, which writes back: the block's ranges
    are rows 0 … 19999 and columns 0 … 63, all there are. -/
theorem output_covered (i : S20000x64.Idx) :
    ∃ t : Fin cfg1.N, (cfg1.win 2).flush t = true ∧ i ∈ ((cfg1.win 2).blk t).view.set := by
  refine ⟨t1_0, flush1_2 t1_0, ?_⟩
  rw [mem_output_block]
  intro a
  match a with
  | ⟨0, _⟩ =>
    show win1_2.index t1_0 (0 : Fin 2) * 20000 ≤ (i 0).val ∧ (i 0).val < win1_2.index t1_0 (0 : Fin 2) * 20000 + 20000
    rw [show win1_2.index t1_0 (0 : Fin 2) = 0 from rfl]
    have h : (i 0).val < 20000 := (i 0).isLt
    omega
  | ⟨1, _⟩ =>
    show win1_2.index t1_0 (1 : Fin 2) * 64 ≤ (i 1).val ∧ (i 1).val < win1_2.index t1_0 (1 : Fin 2) * 64 + 64
    rw [show win1_2.index t1_0 (1 : Fin 2) = 0 from rfl]
    have h : (i 1).val < 64 := (i 1).isLt
    omega

/-! ## The array the region leaves -/

/-- After the region's write-back the output array is the body's arithmetic of the two input arrays as the region
    finds them: every write-back writes its block of that one function, and the blocks cover the array. -/
theorem output_array_eq (c : Dev nD) :
    (dat1 (F := Ideal) V c).arrAt 2 cfg1.N = k1_pay1 (F := Ideal) (V c main_v14) (V c main_arg6) :=
  (dat1 (F := Ideal) V c).arrAt_eq_of_cover 2 (k1_pay1 (F := Ideal) (V c main_v14) (V c main_arg6))
    (fun t _ => written_back_eq V c t) output_covered

/-- Entry (r, q) of the array the region leaves: logistic of entry (r, q) of the [20000×64] input plus entry (0, q)
    of the [1×64] row. -/
theorem final (c : Dev nD) (r : Fin 20000) (q : Fin 64) :
    asE S20000x64 ((dat1 (F := Ideal) V c).arrAt 2 cfg1.N) (ix2 r q)
      = Ideal.logistic (asE S20000x64 (V c main_v14) (ix2 r q) + asE S1x64 (V c main_arg6) (ix2 (0 : Fin 1) q)) := by
  rw [output_array_eq]
  exact logistic_bias_apply (V c main_v14) (V c main_arg6) r q

end Cert.KernelIdeal.Reg1
end
-- ==== Proof.Region2.lean ====
/-
  The third kernel region: for each of the 4014080 rows, the inner product over the 64 columns of a row of one
  [4014080×64] matrix with the same row of another, plus the entry of a length-4014080 vector.

  The region walks 245 grid points. At point t each matrix contributes the block of its rows 16384·t … 16384·t + 16383
  (all 64 columns), the vector and the output the block of their entries 16384·t … 16384·t + 16383. The body multiplies
  the two matrix blocks entry by entry, sums each row over its 64 columns, adds the vector's block, and the result is
  written back as the output's block. So entry r of the block written at point t depends only on row 16384·t + r of the
  two matrices and on entry 16384·t + r of the vector, and it is the value at 16384·t + r of ONE function of the whole
  arrays (`rowDot`). The 245 blocks of 16384 entries are exactly the 4014080 entries (entry i lies in the block of
  point i / 16384), so after the region the output array is that function everywhere.
-/
import proofs.«177247_j43130061586863_1_alg».proof.Proof.Gen.KernelIdeal.Frame
import proofs.«177247_j43130061586863_1_alg».proof.Proof.AsReal
import Idealize.ShloMosaic.Lib.ValueIdx
import Idealize.ShloMosaic.Lib.StableHlo.Predicate
import Idealize.ShloMosaic.PureOps.Ideal.Laws
import Idealize.ShloMosaic.Lib.Pipeline.Value

noncomputable section
namespace Cert.KernelIdeal.Reg2
open Idealize.ShloMosaic Idealize.ShloMosaic.TcCoe Idealize.SL.Sem Cert Cert.KernelIdeal Cert.KernelIdeal.Gen
open Idealize.ShloMosaic.ValueIdx Idealize.ShloMosaic.StableHlo.Predicate

variable (V : (c : Dev nD) → (b : Ref sig .tc) → Buf (Elt Ideal) ((c : Thread nD τ).loc b))

/-! ## One block: the body's result at a row of the block -/

/-- The zero offsets of a rank-2 and of a rank-1 block, as constant functions. -/
theorem zero2 : (![0, 0] : Fin 2 → Nat) = fun _ => 0 := funext fun a => by fin_cases a <;> rfl
theorem zero1 : (![0] : Fin 1 → Nat) = fun _ => 0 := funext fun a => by fin_cases a <;> rfl

/-- Row `r` of the body's result on blocks `x0`, `x1` (16384 rows of 64 columns) and `x2` (16384 entries): the lane
    sum over the 64 columns of the product of the two rows, plus the vector's entry. The same-shape casts are the
    identity; at the ideal values the reduction over the column axis is the plain sum over the columns, and the
    index over row `r` with column `k` inserted is `(r, k)`. -/
theorem pay_at (x0 x1 : Vec Ideal S16384x64 .f32) (x2 : Vec Ideal S16384 .f32) (r : Fin 16384) :
    k2_pay1 (F := Ideal) x0 x1 x2 (ix1 r) = (∑ k : Fin 64, x0 (ix2 r k) * x1 (ix2 r k)) + x2 (ix1 r) := by
  unfold k2_pay1
  simp only [shapeCast_self]
  rw [addf_apply]
  refine congrArg (· + x2 (ix1 r)) ?_
  refine (Ideal.multiReduction_add_single (mulf x0 x1) 0x00000000#32 reduces_S16384x64_S16384 (.inl rfl) rfl (ix1 r)).trans ?_
  refine Finset.sum_congr rfl fun k _ => ?_
  rw [mulf_apply]
  have e : reduces_S16384x64_S16384.lift (ix1 r) k = ix2 r k :=
    funext fun a => Fin.ext (by match a with | ⟨0, _⟩ => rfl | ⟨1, _⟩ => rfl)
  rw [e]
  rfl

/-! ## Where a block sits in its array -/

/-- Every point's block indices, at each of the 245 points: on the row axis each window's block index is the
    point's number; on the column axis of the two matrices it is zero. -/
theorem blk_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = t.val ∧ win2_3.index t (0 : Fin 1) = t.val :=
  (by decide +kernel : ∀ t : Fin grid2.N, _)

/-- Entry `(r, k)` of the first matrix's block at point `t` is entry `(16384·t + r, k)` of the matrix. -/
theorem in_v24 (c : Dev nD) (t : Fin cfg2.N) (r : Fin 16384) (k : Fin 64) (e : Fin 4014080) (he : e.val = 16384 * t.val + r.val) :
    (iblk2 V c 0 t : Vec Ideal S16384x64 .f32) (ix2 r k) = asE S4014080x64 (V c main_v24) (ix2 e k) := by
  obtain ⟨h0, h1, -⟩ := blk_index t
  unfold iblk2
  rw [View.read_apply]
  show V c main_v24 _ = V c main_v24 _
  congr 1
  funext a; apply Fin.ext
  match a with
  | ⟨0, _⟩ => show win2_0.index t 0 * 16384 + 1 * r.val = e.val; rw [h0, he]; omega
  | ⟨1, _⟩ => show win2_0.index t 1 * 64 + 1 * k.val = k.val; rw [h1]; omega

/-- Entry `(r, k)` of the second matrix's block at point `t` is entry `(16384·t + r, k)` of the matrix. -/
theorem in_v31 (c : Dev nD) (t : Fin cfg2.N) (r : Fin 16384) (k : Fin 64) (e : Fin 4014080) (he : e.val = 16384 * t.val + r.val) :
    (iblk2 V c 1 t : Vec Ideal S16384x64 .f32) (ix2 r k) = asE S4014080x64 (V c main_v31) (ix2 e k) := by
  obtain ⟨-, -, h0, h1, -⟩ := blk_index t
  unfold iblk2
  rw [View.read_apply]
  show V c main_v31 _ = V c main_v31 _
  congr 1
  funext a; apply Fin.ext
  match a with
  | ⟨0, _⟩ => show win2_1.index t 0 * 16384 + 1 * r.val = e.val; rw [h0, he]; omega
  | ⟨1, _⟩ => show win2_1.index t 1 * 64 + 1 * k.val = k.val; rw [h1]; omega

/-- Entry `r` of the vector's block at point `t` is entry `16384·t + r` of the vector. -/
theorem in_v38 (c : Dev nD) (t : Fin cfg2.N) (r : Fin 16384) (e : Fin 4014080) (he : e.val = 16384 * t.val + r.val) :
    (iblk2 V c 2 t : Vec Ideal S16384 .f32) (ix1 r) = asE S4014080 (V c main_v38) (ix1 e) := by
  obtain ⟨-, -, -, -, h0, -⟩ := blk_index t
  unfold iblk2
  rw [View.read_apply]
  show V c main_v38 _ = V c main_v38 _
  congr 1
  funext a; apply Fin.ext
  match a with
  | ⟨0, _⟩ => show win2_2.index t 0 * 16384 + 1 * r.val = e.val; rw [h0, he]; omega

/-- Entry `r` of the output's block at point `t` is entry `16384·t + r` of the output. -/
theorem out_at (t : Fin cfg2.N) (r : Fin 16384) (e : Fin 4014080) (he : e.val = 16384 * t.val + r.val) :
    ((cfg2.win 3).blk t).view.emb (ix1 r) = (ix1 e : S4014080.Idx) := by
  obtain ⟨-, -, -, -, -, h0⟩ := blk_index t
  funext a; apply Fin.ext
  match a with
  | ⟨0, _⟩ => show win2_3.index t 0 * 16384 + 1 * r.val = e.val; rw [h0, he]; omega

/-! ## The whole array -/

/-- The row of the two matrices that entry `i` of the output depends on. -/
abbrev row (i : S4014080.Idx) : Fin 4014080 := ⟨(i 0).val, (i 0).isLt⟩

/-- What the output ends holding: at each entry, the sum over the 64 columns of the product of the two matrices'
    rows, plus the vector's entry. -/
abbrev rowDot (A B : S4014080x64.Idx → EReal) (v : S4014080.Idx → EReal) : S4014080.Idx → EReal :=
  fun i => (∑ k : Fin 64, A (ix2 (row i) k) * B (ix2 (row i) k)) + v i

/-- The body's result on the blocks at point `t`, at an entry of the block, is `rowDot` of the arrays at that
    entry's place in the output. -/
theorem point_eq (c : Dev nD) (t : Fin cfg2.N) (j : S16384.Idx) :
    k2_pay1 (F := Ideal) (iblk2 V c 0 t) (iblk2 V c 1 t) (iblk2 V c 2 t) j
      = rowDot (V c main_v24) (V c main_v31) (V c main_v38) (((cfg2.win 3).blk t).view.emb j) := by
  obtain ⟨r, rfl⟩ : ∃ r : Fin 16384, j = ix1 r := ⟨j 0, eq_ix1 j⟩
  have ht : t.val < 245 := by have h := t.isLt; have hN : cfg2.N = 245 := N_2; omega
  have hr : r.val < 16384 := r.isLt
  obtain ⟨e, he⟩ : ∃ e : Fin 4014080, e.val = 16384 * t.val + r.val := ⟨⟨16384 * t.val + r.val, by omega⟩, rfl⟩
  refine (pay_at _ _ _ r).trans ?_
  refine Eq.trans ?_ (congrArg (rowDot (V c main_v24) (V c main_v31) (V c main_v38)) (out_at t r e he)).symm
  show _ = (∑ k : Fin 64, asE S4014080x64 (V c main_v24) (ix2 e k) * asE S4014080x64 (V c main_v31) (ix2 e k))
    + asE S4014080 (V c main_v38) (ix1 e)
  rw [in_v38 V c t r e he]
  refine congrArg (· + _) (Finset.sum_congr rfl fun k _ => ?_)
  rw [in_v24 V c t r k e he, in_v31 V c t r k e he]

/-- What point `t` writes back is block `t` of `rowDot` of the arrays as the region finds them. -/
theorem flushed_eq (c : Dev nD) (t : Fin cfg2.N) :
    (dat2 (F := Ideal) V c).flushed 3 t
      = ((cfg2.win 3).blk t).view.read (Elt Ideal) (rowDot (V c main_v24) (V c main_v31) (V c main_v38)) := by
  show (cfg2.win 3).cut (grid2.coords t) ((dat2 (F := Ideal) V c).after 3 t) = _
  rw [after2_3]
  unfold out2_3
  rw [View.canon_unit_zero zero1]
  simp only [View.ld_unit_zero (S := S16384x64) zero2, View.ld_unit_zero (S := S16384) zero1]
  funext j
  exact point_eq V c t j

/-- An entry of the output is in point `t`'s block iff it lies in the block's range. -/
theorem mem_blk (t : Fin cfg2.N) (i : S4014080.Idx) :
    i ∈ ((cfg2.win 3).blk t).view.set ↔ ∀ a : Fin 1, win2_3.index t a * S16384.size a ≤ (i a).val ∧ (i a).val < win2_3.index t a * S16384.size a + S16384.size a := by
  show i ∈ ((View.whole main_v39).slice (win2_3.rect t)).set ↔ _
  rw [View.set_slice_whole, Rect.mem_set_unit]
  exact Iff.rfl

/-- Every entry of the output is in some point's block: entry `i` in that of point `i / 16384`
    (245 blocks of 16384 entries are the 4014080 entries). -/
theorem cover (i : S4014080.Idx) : ∃ t : Fin cfg2.N, (cfg2.win 3).flush t = true ∧ i ∈ ((cfg2.win 3).blk t).view.set := by
  have hi : (i 0).val < 4014080 := (i 0).isLt
  have hN : cfg2.N = 245 := N_2
  obtain ⟨t, ht⟩ : ∃ t : Fin cfg2.N, t.val = (i 0).val / 16384 := ⟨⟨(i 0).val / 16384, by rw [hN]; omega⟩, rfl⟩
  obtain ⟨-, -, -, -, -, h0⟩ := blk_index t
  refine ⟨t, flush2_3 t, ?_⟩
  rw [mem_blk]
  intro a
  match a with
  | ⟨0, _⟩ =>
    show win2_3.index t 0 * 16384 ≤ (i 0).val ∧ (i 0).val < win2_3.index t 0 * 16384 + 16384
    rw [h0, ht]; omega

/-- The output array after the region: `rowDot` of the three input arrays as the region finds them. -/
theorem final_array (c : Dev nD) :
    (dat2 (F := Ideal) V c).arrAt 3 cfg2.N = rowDot (V c main_v24) (V c main_v31) (V c main_v38) :=
  (dat2 (F := Ideal) V c).arrAt_eq_of_cover 3 _ (fun t _ => flushed_eq V c t) cover

theorem final (c : Dev nD) (i : Fin 4014080) :
    asE S4014080 ((dat2 (F := Ideal) V c).arrAt 3 cfg2.N) (ix1 i)
      = (∑ k : Fin 64, asE S4014080x64 (V c main_v24) (ix2 i k) * asE S4014080x64 (V c main_v31) (ix2 i k))
        + asE S4014080 (V c main_v38) (ix1 i) := by
  exact congrFun (final_array V c) (ix1 i)

end Cert.KernelIdeal.Reg2
end
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.Spec.lean ====
/-
  The mathematics both programs compute, and the index-level facts that read it off their operations.

  An interaction list of `n = 4000000` rows carries a user word `a0 e`, an item word `a1 e` and a rating `a2 e`.
  A user word is normalised as jnp does (a negative word has the table's extent added) and the table row it
  names is the normalised word read signed and clamped into the table (`rowOf`). The message of row `e` in
  column `q` is `a2 e · a5[rowOf (a0 e), q]`; the hidden pre-activation of item `r` is the exact sum of the
  messages of the rows whose item word, read signed, is `r` (a word outside `[0, 20000)` lands nowhere); the
  hidden value is the logistic of that sum plus the bias row `a6`; the output of pair `i` is the dot product over
  the 64 columns of the hidden row and the weight row the pair names, plus the pair's bias entry.

  The program under test pads its lists to a multiple of its block size: the padded rows carry the item word
  `20000`, which lands nowhere, so the sum over the padded list is the sum over the list (`sum_filter_pad`),
  and it drops the padded outputs at the end.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.StableHlo.Predicate
import Idealize.ShloMosaic.Lib.KernelVsHost
import proofs.«177247_j43130061586863_1_alg».proof.Proof.LibGatherScatter

open scoped BigOperators

noncomputable section

namespace Cert.Spec

open Idealize.ShloMosaic
open Idealize.ShloMosaic.ValueIdx
open Idealize.ShloMosaic.StableHlo.Predicate
open Cert.LibGatherScatter

/-! ## The row an index word names -/

/-- jnp's normalisation of the index word `v` against the extent word `c` (a negative word has `c` added), then the
    gather's signed read clamped into `[0, N − 1]`: the table row the word names. -/
def rowOf (N : Nat) (hN : 0 < N) (c v : BitVec 32) : Fin N :=
  ⟨min (Scalar.select (IntOp.cmpi .slt v 0#32) (IntOp.addi v c) v).toInt.toNat (N - 1), by omega⟩

/-! ## The specification -/

section Spec

variable (a0 a1 : (⟨1, ![4000000]⟩ : Shape).Idx → BitVec 32) (a2 : (⟨1, ![4000000]⟩ : Shape).Idx → EReal)
  (a3 a4 : (⟨1, ![4000000]⟩ : Shape).Idx → BitVec 32)
  (a5 : (⟨2, ![100000, 64]⟩ : Shape).Idx → EReal) (a6 : (⟨2, ![1, 64]⟩ : Shape).Idx → EReal)
  (a7 : (⟨2, ![100000, 64]⟩ : Shape).Idx → EReal) (a8 : (⟨1, ![100000]⟩ : Shape).Idx → EReal)

/-- The message of interaction `e` in column `q`: its rating times the embedding row its user word names. -/
def msg (e : Fin 4000000) (q : Fin 64) : EReal :=
  a2 (ix1 e) * a5 (ix2 (rowOf 100000 (by decide) 100000#32 (a0 (ix1 e))) q)

/-- The hidden pre-activation of item `r` in column `q`: the exact sum of the messages of the interactions whose
    item word, read signed, is `r`. -/
def hpre (r : Fin 20000) (q : Fin 64) : EReal :=
  ∑ e ∈ Finset.univ.filter (fun e : Fin 4000000 => (a1 (ix1 e)).toInt = (r.val : ℤ)), msg a0 a2 a5 e q

/-- The hidden value: the logistic of the pre-activation plus the bias row. -/
def hid (r : Fin 20000) (q : Fin 64) : EReal :=
  Ideal.logistic (hpre a0 a1 a2 a5 r q + a6 (ix2 (0 : Fin 1) q))

/-- The output of pair `i`: the dot product of the hidden row of its item and the weight row of its user, plus the
    user's bias entry. -/
def out (i : Fin 4000000) : EReal :=
  (∑ k : Fin 64, hid a0 a1 a2 a5 a6 (rowOf 20000 (by decide) 20000#32 (a4 (ix1 i))) k
      * a7 (ix2 (rowOf 100000 (by decide) 100000#32 (a3 (ix1 i))) k))
    + a8 (ix1 (rowOf 100000 (by decide) 100000#32 (a3 (ix1 i))))

end Spec

/-! ## A list padded at its end, read at a position -/

/-- A rank-1 array of `n` entries padded at its END to `n'` entries reads, at position `e`, the array at `e` when
    `e < n` and the padding value otherwise. -/
theorem pad_read {α : Type} {n n' hi : Nat} (x : (⟨1, ![n]⟩ : Shape).Idx → α) {u : Shape} (v : u.Idx → α)
    (hp : (⟨1, ![n]⟩ : Shape).Pads (![0] : Fin 1 → Nat) ![hi] ![0] ⟨1, ![n']⟩) (hu : 0 < u.numel) (e : Fin n') :
    pad ⟨1, ![n']⟩ ![0] ![hi] ![0] x v hp hu (ix1 e)
      = if h : e.val < n then x (ix1 ⟨e.val, h⟩) else v (Shape.Idx.first hu) := by
  by_cases h : e.val < n
  · rw [dif_pos h]
    refine pad_apply_of_inside _ _ _ x v hp hu _ (ix1 (⟨e.val, h⟩ : Fin n)) ?_
    intro a
    have ha : a = 0 := Subsingleton.elim _ _
    subst ha
    show e.val = 0 + e.val * (0 + 1)
    omega
  · rw [dif_neg h]
    refine pad_apply_of_not_inside _ _ _ x v hp hu _ (0 : Fin 1) ?_
    rintro ⟨-, -, h3⟩
    apply h
    have h3' : (e.val - 0) / (0 + 1) < n := h3
    simpa using h3'

/-! ## A filtered sum over a padded list whose padding is filtered out -/

/-- A sum over the positions `e < n'` that satisfy `P`, when no position from `n` on satisfies it, is the sum over the
    positions `e < n` that do. -/
theorem sum_filter_pad {n n' : Nat} (hle : n ≤ n') (P : Fin n' → Prop) [DecidablePred P] (f : Fin n' → EReal)
    (hout : ∀ e : Fin n', n ≤ e.val → ¬ P e) :
    ∑ e ∈ Finset.univ.filter P, f e
      = ∑ e ∈ (Finset.univ : Finset (Fin n)).filter (fun e => P (Fin.castLE hle e)), f (Fin.castLE hle e) := by
  symm
  refine Finset.sum_bij' (fun e _ => Fin.castLE hle e)
    (fun e he => ⟨e.val, by
      by_contra hc
      exact hout e (Nat.le_of_not_lt hc) (Finset.mem_filter.1 he).2⟩) ?_ ?_ ?_ ?_ ?_
  · intro e he
    exact Finset.mem_filter.2 ⟨Finset.mem_univ _, (Finset.mem_filter.1 he).2⟩
  · intro e he
    refine Finset.mem_filter.2 ⟨Finset.mem_univ _, ?_⟩
    have : Fin.castLE hle ⟨e.val, by
        by_contra hc
        exact hout e (Nat.le_of_not_lt hc) (Finset.mem_filter.1 he).2⟩ = e := Fin.ext rfl
    rw [this]
    exact (Finset.mem_filter.1 he).2
  · intro e _
    exact Fin.ext rfl
  · intro e _
    exact Fin.ext rfl
  · intro e _
    rfl

/-! ## The host's spelling of the logistic -/

/-- The host's `1 / (1 + exp (−y))`, the two ones the float literal `1.0`, is the logistic. -/
theorem host_logistic (y : EReal) :
    Ideal.div (Ideal.ofBits .f32 0x3F800000#32) (Ideal.ofBits .f32 0x3F800000#32 + Ideal.exp (-y)) = Ideal.logistic y := by
  have h1 : Ideal.ofBits .f32 0x3F800000#32 = 1 := IdealRules.sign_bit.ideal_onePat .f32
  rw [h1]
  rfl

/-! ## Gathers at a normalised index column, scatter at an index column -/

/-- A row gather of an `[N × C]` table at the column of the normalised index words `select (V < Z) (V + A) V`, where
    at row `e` the comparand reads the zero word and the addend the word `cw`: element `(e, q)` is the table at the row
    the word `V e` names, column `q`. -/
theorem rowGather_norm {α : Type} {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (h₁ : (⟨1, ![n]⟩ : Shape).BroadcastsInDim ⟨2, ![n, 1]⟩ ![0])
    (x : (⟨2, ![N, C]⟩ : Shape).Idx → α) (V Z A : IVec ⟨1, ![n]⟩ 32) (cw : BitVec 32) (e : Fin n) (q : Fin C)
    (hZ : Z (ix1 e) = 0#32) (hA : A (ix1 e) = cw) :
    Host.gather d x (broadcastInDim ⟨2, ![n, 1]⟩ ![0] h₁ (select (cmpi .slt V Z) (addi V A) V)) (ix2 e q)
      = x (ix2 (rowOf N hN cw (V (ix1 e))) q) := by
  rw [rowGather_apply d hoff hcoll hob hsb hsim hivd hss hN]
  congr 2
  apply Fin.ext
  show min _ (N - 1) = min _ (N - 1)
  rw [bcast_col1_ix1, normIndex_apply, hZ, hA]

/-- The same for a rank-1 table: element `e` is the table at the position the word `V e` names. -/
theorem vecGather_norm {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (h₁ : (⟨1, ![n]⟩ : Shape).BroadcastsInDim ⟨2, ![n, 1]⟩ ![0])
    (x : (⟨1, ![N]⟩ : Shape).Idx → α) (V Z A : IVec ⟨1, ![n]⟩ 32) (cw : BitVec 32) (e : Fin n)
    (hZ : Z (ix1 e) = 0#32) (hA : A (ix1 e) = cw) :
    Host.gather d x (broadcastInDim ⟨2, ![n, 1]⟩ ![0] h₁ (select (cmpi .slt V Z) (addi V A) V)) (ix1 e)
      = x (ix1 (rowOf N hN cw (V (ix1 e)))) := by
  rw [ix1_eq_ofFin e, gather_take d hcoll hob hsim hivd x _ e hN, ← ix1_eq_ofFin]
  congr 2
  apply Fin.ext
  show min _ (N - 1) = min _ (N - 1)
  rw [bcast_col1_ix1, normIndex_apply, hZ, hA, ix1_eq_ofFin e]

/-- The accumulating row scatter at the column of the index words `V`: element `(r, q)` is the operand there plus the
    exact sum of the update rows `e` whose word `V e`, read signed, is `r`. -/
theorem rowScatterAdd_col {N C n : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (h₁ : (⟨1, ![n]⟩ : Shape).BroadcastsInDim ⟨2, ![n, 1]⟩ ![0])
    (x : FVec Ideal ⟨2, ![N, C]⟩ .f32) (V : IVec ⟨1, ![n]⟩ 32) (upd : FVec Ideal ⟨2, ![n, C]⟩ .f32) (r : Fin N) (q : Fin C) :
    Host.scatterAdd (F := Ideal) d x (broadcastInDim ⟨2, ![n, 1]⟩ ![0] h₁ V) upd (ix2 r q)
      = x (ix2 r q) + ∑ e ∈ Finset.univ.filter (fun e : Fin n => (V (ix1 e)).toInt = (r.val : ℤ)), upd (ix2 e q) := by
  rw [rowScatterAdd_apply d huw hiw hsd hivd]
  congr 2
  refine Finset.filter_congr fun e _ => ?_
  rw [bcast_col1_ix1]

end Cert.Spec

end
-- ==== Proof.HostReads.lean ====
/-
  What the host operations of the program under test leave in the buffers the three regions read, entry by entry.

  Before the first region: the rating list padded at its end and kept as a column; the embedding rows gathered at
  the padded user words. Before the second: the padded messages scattered, with exact sums, onto the item rows (a
  padded row carries the item word 20000 and lands nowhere). Before the third: the hidden rows, the weight rows and
  the bias entries gathered at the padded pair words. After it: the first 4000000 outputs kept.
-/
import proofs.«177247_j43130061586863_1_alg».proof.Proof.Gen.KernelIdeal.Frame
import proofs.«177247_j43130061586863_1_alg».proof.Proof.AsReal
import proofs.«177247_j43130061586863_1_alg».proof.Proof.Spec
import Idealize.ShloMosaic.Lib.StableHlo.Run
import Idealize.ShloMosaic.Lib.Pipeline.Value

set_option maxRecDepth 16384

open scoped BigOperators

noncomputable section

namespace Cert.KernelIdeal.HostReads

open Idealize.ShloMosaic Idealize.ShloMosaic.TcCoe Idealize.SL.Sem Cert Cert.KernelIdeal Cert.KernelIdeal.Gen
open Idealize.ShloMosaic.StableHlo
open Idealize.ShloMosaic.ValueIdx Idealize.ShloMosaic.StableHlo.Predicate Cert.LibGatherScatter Cert.Spec

variable (m : (ℓ : Loc nD τ sig) → Buf (Elt Ideal) ℓ) (ρ : Dev nD → PrngReg)

/-! ## The argument arrays, by name -/

abbrev a0 (c : Dev nD) : S4000000.Idx → BitVec 32 := m ((c : Thread nD τ).loc main_arg0)
abbrev a1 (c : Dev nD) : S4000000.Idx → BitVec 32 := m ((c : Thread nD τ).loc main_arg1)
abbrev a2 (c : Dev nD) : S4000000.Idx → EReal := m ((c : Thread nD τ).loc main_arg2)
abbrev a3 (c : Dev nD) : S4000000.Idx → BitVec 32 := m ((c : Thread nD τ).loc main_arg3)
abbrev a4 (c : Dev nD) : S4000000.Idx → BitVec 32 := m ((c : Thread nD τ).loc main_arg4)
abbrev a5 (c : Dev nD) : S100000x64.Idx → EReal := m ((c : Thread nD τ).loc main_arg5)
abbrev a6 (c : Dev nD) : S1x64.Idx → EReal := m ((c : Thread nD τ).loc main_arg6)
abbrev a7 (c : Dev nD) : S100000x64.Idx → EReal := m ((c : Thread nD τ).loc main_arg7)
abbrev a8 (c : Dev nD) : S100000.Idx → EReal := m ((c : Thread nD τ).loc main_arg8)

/-- A word list of 4000000 entries padded at its end with the word `pv`, at position `e`. -/
def padW {n' : Nat} (pv : BitVec 32) (a : S4000000.Idx → BitVec 32) (e : Fin n') : BitVec 32 :=
  if h : e.val < 4000000 then a (ix1 ⟨e.val, h⟩) else pv

/-- A list kept as a column reads, at row `e`, the list at `e`. -/
theorem col_of_list {α : Type} {n : Nat} (x : (⟨1, ![n]⟩ : Shape).Idx → α)
    (h : (⟨1, ![n]⟩ : Shape).ShapeCasts ⟨2, ![n, 1]⟩) (e : Fin n) :
    shapeCast ⟨2, ![n, 1]⟩ x h (ixP e) = x (ix1 e) :=
  shapeCast_apply x h (ixP e) (ix1 e) (by
    rw [Shape.rowMajor_val_one, Shape.rowMajor_val_two]
    show e.val = e.val * 1 + 0
    omega)

/-! ## Before the first region -/

/-- The rating column the first region reads: the padded rating list; past the list, the padding value. -/
theorem W7_v10 (c : Dev nD) (e : Fin 4005888) :
    asE S4005888x1 (W7 m ρ c (Proc.devRef .tc main_v10)) (ixP e)
      = if h : e.val < 4000000 then a2 m c (ix1 ⟨e.val, h⟩)
        else asE S_ (sitofp (F := Ideal) .f32 (constantI S_ 32 0#32)) (Shape.Idx.first h_S_) := by
  dsimp only [asE, asW, W7, W6, W5, W4, W3, W2, W1]
  simp only [hostOps0, hostOps0_1, hostOps0_2, hostOps0_3, hostOps0_4, hostOps0_5, hostOps0_6]
  after_results
  show shapeCast S4005888x1 (pad S4005888 ![0] ![5888] ![0] (a2 m c) (sitofp (F := Ideal) .f32 (constantI S_ 32 0#32))
      pads_S4000000_S4005888_058880 h_S_) shapeCasts_S4005888_S4005888x1 (ixP e) = _
  rw [col_of_list, pad_read]

/-- The embedding rows the first region reads: row `e` is the embedding row the padded user word at `e` names. -/
theorem W7_v9 (c : Dev nD) (e : Fin 4005888) (q : Fin 64) :
    asE S4005888x64 (W7 m ρ c (Proc.devRef .tc main_v9)) (ix2 e q)
      = a5 m c (ix2 (rowOf 100000 (by decide) 100000#32 (padW 0#32 (a0 m c) e)) q) := by
  dsimp only [asE, asW, W7, W6, W5, W4, W3, W2, W1]
  simp only [hostOps0, hostOps0_1, hostOps0_2, hostOps0_3, hostOps0_4, hostOps0_5, hostOps0_6]
  after_results
  show Host.gather gather_S100000x64_S4005888x1_S4005888x64_1_0_n_n_0_1_164 (a5 m c)
      (broadcastInDim S4005888x1 ![0] bcast_S4005888_S4005888x1_0
        (select (cmpi .slt (pad S4005888 ![0] ![5888] ![0] (a0 m c) (constantI S_ 32 0#32) pads_S4000000_S4005888_058880 h_S_)
            (broadcastInDim S4005888 ![] bcast_S_S4005888 (constantI S_ 32 0#32)))
          (addi (pad S4005888 ![0] ![5888] ![0] (a0 m c) (constantI S_ 32 0#32) pads_S4000000_S4005888_058880 h_S_)
            (broadcastInDim S4005888 ![] bcast_S_S4005888 (constantI S_ 32 100000#32)))
          (pad S4005888 ![0] ![5888] ![0] (a0 m c) (constantI S_ 32 0#32) pads_S4000000_S4005888_058880 h_S_))) (ix2 e q) = _
  rw [rowGather_norm _ rfl rfl rfl rfl rfl rfl rfl (by decide) _ _ _ _ _ 100000#32 e q rfl rfl, pad_read]
  rfl

/-- The padded item words, as the second region's scatter reads them (the first region leaves them alone). -/
theorem W8_v1 (c : Dev nD) (e : Fin 4005888) :
    asW S4005888 (W8 m ρ c (Proc.devRef .tc main_v1)) (ix1 e) = padW 20000#32 (a1 m c) e := by
  rw [W8_of_ne m ρ c main_v1 (by decide)]
  dsimp only [asE, asW, W7, W6, W5, W4, W3, W2, W1]
  simp only [hostOps0, hostOps0_1, hostOps0_2, hostOps0_3, hostOps0_4, hostOps0_5, hostOps0_6]
  after_results
  show pad S4005888 ![0] ![5888] ![0] (a1 m c) (constantI S_ 32 20000#32) pads_S4000000_S4005888_058880 h_S_ (ix1 e) = _
  rw [pad_read]
  rfl

/-! ## Before the second region -/

/-- The scattered messages: item row `r`, column `q`, is the exact sum of the first region's products over the padded
    rows whose item word, read signed, is `r`. -/
theorem W9_v14 (c : Dev nD) (r : Fin 20000) (q : Fin 64) :
    asE S20000x64 (W9 m ρ c (Proc.devRef .tc main_v14)) (ix2 r q)
      = ∑ e ∈ Finset.univ.filter (fun e : Fin 4005888 => (padW 20000#32 (a1 m c) e).toInt = (r.val : ℤ)),
          asE S4005888x64 (W8 m ρ c (Proc.devRef .tc main_v11)) (ix2 e q) := by
  dsimp only [asE, W9]
  simp only [hostOps1]
  after_results
  show Host.scatterAdd (F := Ideal) scatter_S20000x64_S4005888x1_S4005888x64_1_0_0_1
      (broadcastInDim S20000x64 ![] bcast_S_S20000x64 (constant (F := Ideal) S_ .f32 0x00000000#32))
      (broadcastInDim S4005888x1 ![0] bcast_S4005888_S4005888x1_0 (asW S4005888 (W8 m ρ c (Proc.devRef .tc main_v1))))
      (asE S4005888x64 (W8 m ρ c (Proc.devRef .tc main_v11))) (ix2 r q) = _
  rw [rowScatterAdd_col _ rfl rfl rfl rfl]
  have hz : broadcastInDim S20000x64 ![] bcast_S_S20000x64 (constant (F := Ideal) S_ .f32 0x00000000#32) (ix2 r q) = (0 : EReal) :=
    Ideal.ofBits_zero_f32
  rw [hz, zero_add]
  refine Finset.sum_congr (Finset.filter_congr fun e _ => ?_) (fun _ _ => rfl)
  rw [W8_v1 m ρ c e]

/-- The bias row the second region reads is the argument as launched. -/
theorem W9_arg6 (c : Dev nD) : W9 m ρ c (Proc.devRef .tc main_arg6) = m ((c : Thread nD τ).loc main_arg6) := by
  dsimp only [W9]
  simp only [hostOps1]
  after_results
  rw [W8_of_ne m ρ c main_arg6 (by decide)]
  dsimp only [W7, W6, W5, W4, W3, W2, W1]
  simp only [hostOps0, hostOps0_1, hostOps0_2, hostOps0_3, hostOps0_4, hostOps0_5, hostOps0_6]
  after_results
  try rfl

/-! ## Before the third region -/

/-- Nothing before the third region writes argument 3: at the second region's exit it is as launched. -/
theorem W10_arg3 (c : Dev nD) : W10 m ρ c (Proc.devRef .tc main_arg3) = m ((c : Thread nD τ).loc main_arg3) := by
  rw [W10_of_ne m ρ c main_arg3 (by decide)]
  dsimp only [W9]
  simp only [hostOps1]
  after_results
  rw [W8_of_ne m ρ c main_arg3 (by decide)]
  dsimp only [W7, W6, W5, W4, W3, W2, W1]
  simp only [hostOps0, hostOps0_1, hostOps0_2, hostOps0_3, hostOps0_4, hostOps0_5, hostOps0_6]
  after_results
  try rfl

/-- Nothing before the third region writes argument 4: at the second region's exit it is as launched. -/
theorem W10_arg4 (c : Dev nD) : W10 m ρ c (Proc.devRef .tc main_arg4) = m ((c : Thread nD τ).loc main_arg4) := by
  rw [W10_of_ne m ρ c main_arg4 (by decide)]
  dsimp only [W9]
  simp only [hostOps1]
  after_results
  rw [W8_of_ne m ρ c main_arg4 (by decide)]
  dsimp only [W7, W6, W5, W4, W3, W2, W1]
  simp only [hostOps0, hostOps0_1, hostOps0_2, hostOps0_3, hostOps0_4, hostOps0_5, hostOps0_6]
  after_results
  try rfl

/-- Nothing before the third region writes argument 7: at the second region's exit it is as launched. -/
theorem W10_arg7 (c : Dev nD) : W10 m ρ c (Proc.devRef .tc main_arg7) = m ((c : Thread nD τ).loc main_arg7) := by
  rw [W10_of_ne m ρ c main_arg7 (by decide)]
  dsimp only [W9]
  simp only [hostOps1]
  after_results
  rw [W8_of_ne m ρ c main_arg7 (by decide)]
  dsimp only [W7, W6, W5, W4, W3, W2, W1]
  simp only [hostOps0, hostOps0_1, hostOps0_2, hostOps0_3, hostOps0_4, hostOps0_5, hostOps0_6]
  after_results
  try rfl

/-- Nothing before the third region writes argument 8: at the second region's exit it is as launched. -/
theorem W10_arg8 (c : Dev nD) : W10 m ρ c (Proc.devRef .tc main_arg8) = m ((c : Thread nD τ).loc main_arg8) := by
  rw [W10_of_ne m ρ c main_arg8 (by decide)]
  dsimp only [W9]
  simp only [hostOps1]
  after_results
  rw [W8_of_ne m ρ c main_arg8 (by decide)]
  dsimp only [W7, W6, W5, W4, W3, W2, W1]
  simp only [hostOps0, hostOps0_1, hostOps0_2, hostOps0_3, hostOps0_4, hostOps0_5, hostOps0_6]
  after_results
  try rfl

set_option maxHeartbeats 1000000 in
/-- The hidden rows the third region reads: row `i` is the second region's output row the padded item word at `i` names. -/
theorem W15_v24 (c : Dev nD) (i : Fin 4014080) (k : Fin 64) :
    asE S4014080x64 (W15 m ρ c (Proc.devRef .tc main_v24)) (ix2 i k)
      = asE S20000x64 (W10 m ρ c (Proc.devRef .tc main_v15)) (ix2 (rowOf 20000 (by decide) 20000#32 (padW 0#32 (a4 m c) i)) k) := by
  dsimp only [asE, asW, W15, W14, W13, W12, W11]
  simp only [hostOps2, hostOps2_1, hostOps2_2, hostOps2_3, hostOps2_4]
  after_results_simp
  rw [W10_arg4]
  show Host.gather gather_S20000x64_S4014080x1_S4014080x64_1_0_n_n_0_1_164 (asE S20000x64 (W10 m ρ c (Proc.devRef .tc main_v15)))
      (broadcastInDim S4014080x1 ![0] bcast_S4014080_S4014080x1_0
        (select (cmpi .slt (pad S4014080 ![0] ![14080] ![0] (a4 m c) (constantI S_ 32 0#32) pads_S4000000_S4014080_0140800 h_S_)
            (broadcastInDim S4014080 ![] bcast_S_S4014080 (constantI S_ 32 0#32)))
          (addi (pad S4014080 ![0] ![14080] ![0] (a4 m c) (constantI S_ 32 0#32) pads_S4000000_S4014080_0140800 h_S_)
            (broadcastInDim S4014080 ![] bcast_S_S4014080 (constantI S_ 32 20000#32)))
          (pad S4014080 ![0] ![14080] ![0] (a4 m c) (constantI S_ 32 0#32) pads_S4000000_S4014080_0140800 h_S_))) (ix2 i k) = _
  rw [rowGather_norm _ rfl rfl rfl rfl rfl rfl rfl (by decide) _ _ _ _ _ 20000#32 i k rfl rfl, pad_read]
  rfl

set_option maxHeartbeats 1000000 in
/-- The weight rows the third region reads: row `i` is the weight row the padded user word at `i` names. -/
theorem W15_v31 (c : Dev nD) (i : Fin 4014080) (k : Fin 64) :
    asE S4014080x64 (W15 m ρ c (Proc.devRef .tc main_v31)) (ix2 i k)
      = a7 m c (ix2 (rowOf 100000 (by decide) 100000#32 (padW 0#32 (a3 m c) i)) k) := by
  dsimp only [asE, asW, W15, W14, W13, W12, W11]
  simp only [hostOps2, hostOps2_1, hostOps2_2, hostOps2_3, hostOps2_4]
  after_results_simp
  rw [W10_arg3, W10_arg7]
  show Host.gather gather_S100000x64_S4014080x1_S4014080x64_1_0_n_n_0_1_164 (a7 m c)
      (broadcastInDim S4014080x1 ![0] bcast_S4014080_S4014080x1_0
        (select (cmpi .slt (pad S4014080 ![0] ![14080] ![0] (a3 m c) (constantI S_ 32 0#32) pads_S4000000_S4014080_0140800 h_S_)
            (broadcastInDim S4014080 ![] bcast_S_S4014080 (constantI S_ 32 0#32)))
          (addi (pad S4014080 ![0] ![14080] ![0] (a3 m c) (constantI S_ 32 0#32) pads_S4000000_S4014080_0140800 h_S_)
            (broadcastInDim S4014080 ![] bcast_S_S4014080 (constantI S_ 32 100000#32)))
          (pad S4014080 ![0] ![14080] ![0] (a3 m c) (constantI S_ 32 0#32) pads_S4000000_S4014080_0140800 h_S_))) (ix2 i k) = _
  rw [rowGather_norm _ rfl rfl rfl rfl rfl rfl rfl (by decide) _ _ _ _ _ 100000#32 i k rfl rfl, pad_read]
  rfl

set_option maxHeartbeats 1000000 in
/-- The bias entries the third region reads: entry `i` is the bias entry the padded user word at `i` names. -/
theorem W15_v38 (c : Dev nD) (i : Fin 4014080) :
    asE S4014080 (W15 m ρ c (Proc.devRef .tc main_v38)) (ix1 i)
      = a8 m c (ix1 (rowOf 100000 (by decide) 100000#32 (padW 0#32 (a3 m c) i))) := by
  dsimp only [asE, asW, W15, W14, W13, W12, W11]
  simp only [hostOps2, hostOps2_1, hostOps2_2, hostOps2_3, hostOps2_4]
  after_results_simp
  rw [W10_arg3, W10_arg8]
  show Host.gather gather_S100000_S4014080x1_S4014080_n_0_n_n_0_1_1 (a8 m c)
      (broadcastInDim S4014080x1 ![0] bcast_S4014080_S4014080x1_0
        (select (cmpi .slt (pad S4014080 ![0] ![14080] ![0] (a3 m c) (constantI S_ 32 0#32) pads_S4000000_S4014080_0140800 h_S_)
            (broadcastInDim S4014080 ![] bcast_S_S4014080 (constantI S_ 32 0#32)))
          (addi (pad S4014080 ![0] ![14080] ![0] (a3 m c) (constantI S_ 32 0#32) pads_S4000000_S4014080_0140800 h_S_)
            (broadcastInDim S4014080 ![] bcast_S_S4014080 (constantI S_ 32 100000#32)))
          (pad S4014080 ![0] ![14080] ![0] (a3 m c) (constantI S_ 32 0#32) pads_S4000000_S4014080_0140800 h_S_))) (ix1 i) = _
  rw [vecGather_norm _ rfl rfl rfl rfl (by decide) _ _ _ _ _ 100000#32 i rfl rfl, pad_read]
  rfl

/-! ## After the third region -/

/-- The result keeps the first 4000000 entries of the third region's output. -/
theorem W17_v40 (c : Dev nD) (i : Fin 4000000) :
    asE S4000000 (W17 m ρ c (Proc.devRef .tc main_v40)) (ix1 i)
      = asE S4014080 (W16 m ρ c (Proc.devRef .tc main_v39)) (ix1 ⟨i.val, by omega⟩) := by
  dsimp only [asE, W17]
  simp only [hostOps3]
  after_results
  refine extractStridedSlice_apply _ _ _ (ix1 i) (ix1 (⟨i.val, by omega⟩ : Fin 4014080)) ?_
  intro a
  have ha : a = 0 := Subsingleton.elim _ _
  subst ha
  show i.val = 0 + i.val
  omega

end Cert.KernelIdeal.HostReads

end
-- ==== Proof.KernelValue.lean ====
/-
  The value of the program under test: its result at pair `i` is the specification's output there.

  The three regions' outputs are read off the run's fold one after the other. The first region leaves, at padded row
  `e`, the padded rating times the embedding row the padded user word names. The scatter between the regions sums
  those rows per item word; a padded row carries the item word 20000, outside the item range, and contributes to no
  item, so the sum over the padded rows is the sum over the rows of the list. The second region applies the logistic
  to that sum plus the bias row. The third region's row sum of products plus bias entry, read at a pair `i` of the
  list (where the padded pair words are the list's), is the specification's output; the padded outputs are dropped.
-/
import proofs.«177247_j43130061586863_1_alg».proof.Proof.Region0
import proofs.«177247_j43130061586863_1_alg».proof.Proof.Region1
import proofs.«177247_j43130061586863_1_alg».proof.Proof.Region2
import proofs.«177247_j43130061586863_1_alg».proof.Proof.HostReads

set_option maxRecDepth 16384

open scoped BigOperators

noncomputable section

namespace Cert.KernelIdeal.KValue

open Idealize.ShloMosaic Idealize.ShloMosaic.TcCoe Idealize.SL.Sem Cert Cert.KernelIdeal Cert.KernelIdeal.Gen
open Idealize.ShloMosaic.ValueIdx Idealize.ShloMosaic.StableHlo.Predicate Cert.Spec Cert.KernelIdeal.HostReads

variable (m : (ℓ : Loc nD τ sig) → Buf (Elt Ideal) ℓ) (ρ : Dev nD → PrngReg)

/-- The padded word list at a position of the list is the list's word there. -/
theorem padW_inside {n' : Nat} (pv : BitVec 32) (a : S4000000.Idx → BitVec 32) (e : Fin n') (h : e.val < 4000000) :
    padW pv a e = a (ix1 ⟨e.val, h⟩) := by
  unfold padW
  rw [dif_pos h]

/-- The padded word list past the list is the padding word. -/
theorem padW_outside {n' : Nat} (pv : BitVec 32) (a : S4000000.Idx → BitVec 32) (e : Fin n') (h : 4000000 ≤ e.val) :
    padW pv a e = pv := by
  unfold padW
  rw [dif_neg (by omega)]

/-- The first region's output at padded row `e`, column `q`: the padded rating times the embedding row the padded user
    word names. -/
theorem first_region (c : Dev nD) (e : Fin 4005888) (q : Fin 64) :
    asE S4005888x64 (W8 m ρ c (Proc.devRef .tc main_v11)) (ix2 e q)
      = (if h : e.val < 4000000 then a2 m c (ix1 ⟨e.val, h⟩)
          else asE S_ (sitofp (F := Ideal) .f32 (constantI S_ 32 0#32)) (Shape.Idx.first h_S_))
        * a5 m c (ix2 (rowOf 100000 (by decide) 100000#32 (padW 0#32 (a0 m c) e)) q) := by
  have h1 : asE S4005888x64 (W8 m ρ c (Proc.devRef .tc main_v11)) (ix2 e q)
      = asE S4005888x64 ((dat0 (F := Ideal) (V7 m ρ) c).arrAt 2 cfg0.N) (ix2 e q) :=
    congrArg (fun f => asE S4005888x64 f (ix2 e q)) (W8_arr m ρ c 2)
  have h3 : asE S4005888x1 (V7 m ρ c main_v10) (ixP e) = _ := W7_v10 m ρ c e
  have h4 : asE S4005888x64 (V7 m ρ c main_v9) (ix2 e q) = _ := W7_v9 m ρ c e q
  rw [h1, Reg0.final, h3, h4]

/-- The scattered messages are the specification's hidden pre-activation: the padded rows land on no item. -/
theorem scattered (c : Dev nD) (r : Fin 20000) (q : Fin 64) :
    asE S20000x64 (W9 m ρ c (Proc.devRef .tc main_v14)) (ix2 r q)
      = hpre (a0 m c) (a1 m c) (a2 m c) (a5 m c) r q := by
  have hout : ∀ e : Fin 4005888, 4000000 ≤ e.val → ¬ ((padW 20000#32 (a1 m c) e).toInt = (r.val : ℤ)) := by
    intro e he heq
    rw [padW_outside _ _ e he] at heq
    have h20 : (20000#32 : BitVec 32).toInt = 20000 := by decide
    rw [h20] at heq
    have := r.isLt
    omega
  rw [W9_v14, sum_filter_pad (by decide : 4000000 ≤ 4005888) _ _ hout]
  unfold hpre
  refine Finset.sum_congr (Finset.filter_congr fun e _ => ?_) (fun e _ => ?_)
  · rw [padW_inside 20000#32 (a1 m c) (Fin.castLE (by decide : 4000000 ≤ 4005888) e) e.isLt]
    exact Iff.rfl
  · rw [first_region, dif_pos (show (Fin.castLE (by decide : 4000000 ≤ 4005888) e).val < 4000000 from e.isLt),
      padW_inside 0#32 (a0 m c) (Fin.castLE (by decide : 4000000 ≤ 4005888) e) e.isLt]
    rfl

/-- The second region's output is the specification's hidden value. -/
theorem second_region (c : Dev nD) (r : Fin 20000) (q : Fin 64) :
    asE S20000x64 (W10 m ρ c (Proc.devRef .tc main_v15)) (ix2 r q)
      = hid (a0 m c) (a1 m c) (a2 m c) (a5 m c) (a6 m c) r q := by
  have h1 : asE S20000x64 (W10 m ρ c (Proc.devRef .tc main_v15)) (ix2 r q)
      = asE S20000x64 ((dat1 (F := Ideal) (V9 m ρ) c).arrAt 2 cfg1.N) (ix2 r q) :=
    congrArg (fun f => asE S20000x64 f (ix2 r q)) (W10_arr m ρ c 2)
  have h3 : asE S20000x64 (V9 m ρ c main_v14) (ix2 r q) = _ := scattered m ρ c r q
  have h4 : asE S1x64 (V9 m ρ c main_arg6) (ix2 (0 : Fin 1) q) = a6 m c (ix2 (0 : Fin 1) q) :=
    congrArg (fun f => asE S1x64 f (ix2 (0 : Fin 1) q)) (W9_arg6 m ρ c)
  rw [h1, Reg1.final, h3, h4]
  rfl

/-- THE RESULT of the program under test at pair `i` is the specification's output. -/
theorem result (c : Dev nD) (i : Fin 4000000) :
    asE S4000000 (W17 m ρ c (Proc.devRef .tc main_v40)) (ix1 i)
      = out (a0 m c) (a1 m c) (a2 m c) (a3 m c) (a4 m c) (a5 m c) (a6 m c) (a7 m c) (a8 m c) i := by
  have hi : i.val < 4014080 := by have := i.isLt; omega
  have h1 : asE S4014080 (W16 m ρ c (Proc.devRef .tc main_v39)) (ix1 (⟨i.val, hi⟩ : Fin 4014080))
      = asE S4014080 ((dat2 (F := Ideal) (V15 m ρ) c).arrAt 3 cfg2.N) (ix1 (⟨i.val, hi⟩ : Fin 4014080)) :=
    congrArg (fun f => asE S4014080 f (ix1 (⟨i.val, hi⟩ : Fin 4014080))) (W16_arr m ρ c 3)
  have hp3 : padW 0#32 (a3 m c) (⟨i.val, hi⟩ : Fin 4014080) = a3 m c (ix1 i) := padW_inside _ _ _ i.isLt
  have hp4 : padW 0#32 (a4 m c) (⟨i.val, hi⟩ : Fin 4014080) = a4 m c (ix1 i) := padW_inside _ _ _ i.isLt
  have hs : (∑ k : Fin 64, asE S4014080x64 (V15 m ρ c main_v24) (ix2 (⟨i.val, hi⟩ : Fin 4014080) k)
        * asE S4014080x64 (V15 m ρ c main_v31) (ix2 (⟨i.val, hi⟩ : Fin 4014080) k))
      = ∑ k : Fin 64, hid (a0 m c) (a1 m c) (a2 m c) (a5 m c) (a6 m c) (rowOf 20000 (by decide) 20000#32 (a4 m c (ix1 i))) k
          * a7 m c (ix2 (rowOf 100000 (by decide) 100000#32 (a3 m c (ix1 i))) k) :=
    Finset.sum_congr rfl fun k _ => by
      have e1 : asE S4014080x64 (V15 m ρ c main_v24) (ix2 (⟨i.val, hi⟩ : Fin 4014080) k) = _ := W15_v24 m ρ c _ k
      have e2 : asE S4014080x64 (V15 m ρ c main_v31) (ix2 (⟨i.val, hi⟩ : Fin 4014080) k) = _ := W15_v31 m ρ c _ k
      rw [e1, e2, second_region, hp3, hp4]
  have hb : asE S4014080 (V15 m ρ c main_v38) (ix1 (⟨i.val, hi⟩ : Fin 4014080))
      = a8 m c (ix1 (rowOf 100000 (by decide) 100000#32 (a3 m c (ix1 i)))) := by
    have e3 : asE S4014080 (V15 m ρ c main_v38) (ix1 (⟨i.val, hi⟩ : Fin 4014080)) = _ := W15_v38 m ρ c _
    rw [e3, hp3]
  rw [W17_v40, h1, Reg2.final, hs, hb]
  rfl

end Cert.KernelIdeal.KValue

end
-- ==== Proof.RefValue.lean ====
import proofs.«177247_j43130061586863_1_alg».proof.Proof.Gen.ReferenceIdeal.Read
import proofs.«177247_j43130061586863_1_alg».proof.Proof.Spec

noncomputable section
namespace Cert.ReferenceIdeal.RefValue
open Idealize.ShloMosaic Idealize.ShloMosaic.TcCoe Idealize.SL.Sem Cert.ReferenceIdeal Cert.ReferenceIdeal.Gen Cert.ReferenceIdeal.Read
open Idealize.ShloMosaic.ValueIdx Idealize.ShloMosaic.StableHlo.Predicate Cert.LibGatherScatter

/-!
  The reference program, read stage by stage at explicit coordinates, computes the specification.

  Interaction `e` sends, in column `q`, its rating times the embedding row its user word names (the gather of the
  embedding table at the normalised user words, times the rating list spread over the columns). The accumulating
  scatter of these messages into the zero table at the item words is, at item `r`, the exact sum of the messages of the
  interactions whose item word is `r`. Adding the bias row and applying `1 / (1 + exp (−·))` gives the hidden value. The
  result at pair `i` is the sum over the 64 columns, started at zero, of the hidden row of the pair's item times the
  weight row of the pair's user, plus the user's bias entry: the three gathers at the pair's normalised words.
-/

/-! ## The generated index functions at coordinates -/

/-- The rating column, spread over the 64 columns, is read at the row of the element. -/
theorem idx_rating (e : Fin 4000000) (q : Fin 64) : idx_main_v0 (idx_main_v8 (ix2 e q)) = ix1 e :=
  funext fun a => Fin.ext (by match a with | ⟨0, _⟩ => rfl)

/-- The bias row, spread over the 20000 items, is read at row 0 and the column of the element. -/
theorem idx_bias (r : Fin 20000) (q : Fin 64) : idx_main_v13 (ix2 r q) = ix2 (0 : Fin 1) q :=
  funext fun a => Fin.ext (by match a with | ⟨0, _⟩ => rfl | ⟨1, _⟩ => rfl)

/-- The sum over the columns of pair `i` reads the products at `(i, k)`. -/
theorem idx_dot (i : Fin 4000000) (k : Fin 64) : idx_main_v36 (ix1 i) k = ix2 i k :=
  funext fun a => Fin.ext (by match a with | ⟨0, _⟩ => rfl | ⟨1, _⟩ => rfl)

section Stages

variable (x0 x1 : (⟨S4000000, .i32⟩ : BufTy).Contents (Elt Ideal)) (x2 : (⟨S4000000, .f32⟩ : BufTy).Contents (Elt Ideal))
  (x3 x4 : (⟨S4000000, .i32⟩ : BufTy).Contents (Elt Ideal)) (x5 : (⟨S100000x64, .f32⟩ : BufTy).Contents (Elt Ideal))
  (x6 : (⟨S1x64, .f32⟩ : BufTy).Contents (Elt Ideal)) (x7 : (⟨S100000x64, .f32⟩ : BufTy).Contents (Elt Ideal))
  (x8 : (⟨S100000, .f32⟩ : BufTy).Contents (Elt Ideal))

/-! ## The messages -/

/-- The embedding table gathered at the normalised user words: element `(e, q)` is the table at the row the user word
    of interaction `e` names, column `q`. -/
theorem emb_gathered (e : Fin 4000000) (q : Fin 64) :
    val_main_v7 (F := Ideal) x0 x5 (ix2 e q)
      = x5 (ix2 (Cert.Spec.rowOf 100000 (by decide) 100000#32 (x0 (ix1 e))) q) := by
  unfold val_main_v7 val_main_v6 val_main_v5 val_main_v2 val_main_v4
  exact Cert.Spec.rowGather_norm gather_S100000x64_S4000000x1_S4000000x64_1_0_n_n_0_1_164 rfl rfl rfl rfl rfl rfl rfl
    (by decide) bcast_S4000000_S4000000x1_0 x5 x0 (val_main_v1 (F := Ideal)) (val_main_v3 (F := Ideal)) 100000#32 e q rfl rfl

/-- The rating list spread over the columns: element `(e, q)` is the rating of interaction `e`. -/
theorem rating_spread (e : Fin 4000000) (q : Fin 64) : val_main_v8 (F := Ideal) x2 (ix2 e q) = x2 (ix1 e) := by
  rw [val_main_v8_apply, val_main_v0_apply, idx_rating]

/-- The product of the two is the specification's message. -/
theorem msg_eq (e : Fin 4000000) (q : Fin 64) :
    val_main_v9 (F := Ideal) x0 x2 x5 (ix2 e q) = Cert.Spec.msg x0 x2 x5 e q := by
  rw [val_main_v9_apply, rating_spread, emb_gathered]
  rfl

/-! ## The hidden layer -/

/-- The accumulating scatter of the messages into the zero table: element `(r, q)` is zero plus the exact sum of the
    messages of the interactions whose item word is `r`, the specification's pre-activation. -/
theorem hpre_eq (r : Fin 20000) (q : Fin 64) :
    val_main_v12 (F := Ideal) x0 x1 x2 x5 (ix2 r q) = Cert.Spec.hpre x0 x1 x2 x5 r q := by
  unfold val_main_v12 val_main_v11
  refine (Cert.Spec.rowScatterAdd_col scatter_S20000x64_S4000000x1_S4000000x64_1_0_0_1 rfl rfl rfl rfl
    bcast_S4000000_S4000000x1_0 (val_main_v10 (F := Ideal)) x1 (val_main_v9 (F := Ideal) x0 x2 x5) r q).trans ?_
  rw [val_main_v10_apply, val_main_cst_apply, Ideal.ofBits_def, Ideal.ofBits_zero_f32, zero_add]
  exact Finset.sum_congr rfl fun e _ => msg_eq x0 x2 x5 e q

/-- The host's `1 / (1 + exp (−(h + bias)))` is the logistic of the pre-activation plus the bias row: the hidden value. -/
theorem hid_eq (r : Fin 20000) (q : Fin 64) :
    val_main_v20 (F := Ideal) x0 x1 x2 x5 x6 (ix2 r q) = Cert.Spec.hid x0 x1 x2 x5 x6 r q := by
  rw [val_main_v20_apply, val_main_v19_apply, val_main_cst_2_apply, val_main_v18_apply, val_main_v17_apply,
    val_main_cst_1_apply, val_main_v16_apply, val_main_v15_apply, val_main_v14_apply, hpre_eq, val_main_v13_apply, idx_bias]
  simp only [Ideal.hostDivf_def, Ideal.hostUnary_exp_def, Ideal.hostNegf_def, Ideal.negf_def, Ideal.addf_def, Ideal.ofBits_def]
  exact Cert.Spec.host_logistic _

/-! ## The three gathers of the output pairs -/

/-- The hidden table gathered at the normalised item words of the pairs: element `(i, k)` is the hidden value of the
    item pair `i` names, column `k`. -/
theorem hid_gathered (i : Fin 4000000) (k : Fin 64) :
    val_main_v27 (F := Ideal) x0 x1 x2 x4 x5 x6 (ix2 i k)
      = Cert.Spec.hid x0 x1 x2 x5 x6 (Cert.Spec.rowOf 20000 (by decide) 20000#32 (x4 (ix1 i))) k := by
  unfold val_main_v27 val_main_v26 val_main_v25 val_main_v22 val_main_v24
  refine (Cert.Spec.rowGather_norm gather_S20000x64_S4000000x1_S4000000x64_1_0_n_n_0_1_164 rfl rfl rfl rfl rfl rfl rfl
    (by decide) bcast_S4000000_S4000000x1_0 (val_main_v20 (F := Ideal) x0 x1 x2 x5 x6) x4 (val_main_v21 (F := Ideal))
    (val_main_v23 (F := Ideal)) 20000#32 i k rfl rfl).trans ?_
  exact hid_eq x0 x1 x2 x5 x6 _ k

/-- The weight table gathered at the normalised user words of the pairs. -/
theorem weight_gathered (i : Fin 4000000) (k : Fin 64) :
    val_main_v34 (F := Ideal) x3 x7 (ix2 i k)
      = x7 (ix2 (Cert.Spec.rowOf 100000 (by decide) 100000#32 (x3 (ix1 i))) k) := by
  unfold val_main_v34 val_main_v33 val_main_v32 val_main_v29 val_main_v31
  exact Cert.Spec.rowGather_norm gather_S100000x64_S4000000x1_S4000000x64_1_0_n_n_0_1_164 rfl rfl rfl rfl rfl rfl rfl
    (by decide) bcast_S4000000_S4000000x1_0 x7 x3 (val_main_v28 (F := Ideal)) (val_main_v30 (F := Ideal)) 100000#32 i k rfl rfl

/-- The bias list gathered at the normalised user words of the pairs. -/
theorem bias_gathered (i : Fin 4000000) :
    val_main_v43 (F := Ideal) x3 x8 (ix1 i)
      = x8 (ix1 (Cert.Spec.rowOf 100000 (by decide) 100000#32 (x3 (ix1 i)))) := by
  unfold val_main_v43 val_main_v42 val_main_v41 val_main_v38 val_main_v40
  exact Cert.Spec.vecGather_norm gather_S100000_S4000000x1_S4000000_n_0_n_n_0_1_1 rfl rfl rfl rfl
    (by decide) bcast_S4000000_S4000000x1_0 x8 x3 (val_main_v37 (F := Ideal)) (val_main_v39 (F := Ideal)) 100000#32 i rfl rfl

/-! ## The dot product over the columns -/

/-- The sum over the 64 columns, started at the zero word: the dot product of the hidden row and the weight row. -/
theorem dot_eq (i : Fin 4000000) :
    val_main_v36 (F := Ideal) x0 x1 x2 x3 x4 x5 x6 x7 (ix1 i)
      = ∑ k : Fin 64, Cert.Spec.hid x0 x1 x2 x5 x6 (Cert.Spec.rowOf 20000 (by decide) 20000#32 (x4 (ix1 i))) k
          * x7 (ix2 (Cert.Spec.rowOf 100000 (by decide) 100000#32 (x3 (ix1 i))) k) := by
  rw [val_main_v36_apply, val_main_cst_7_apply, Ideal.ofBits_def, Ideal.ofBits_zero_f32, zero_add]
  refine Finset.sum_congr rfl fun k _ => ?_
  rw [idx_dot, val_main_v35_apply, hid_gathered, weight_gathered]
  rfl

end Stages

/-- The reference's result at pair `i` is the specification's output there. -/
theorem result_eq (x0 x1 : (⟨S4000000, .i32⟩ : BufTy).Contents (Elt Ideal)) (x2 : (⟨S4000000, .f32⟩ : BufTy).Contents (Elt Ideal))
    (x3 x4 : (⟨S4000000, .i32⟩ : BufTy).Contents (Elt Ideal)) (x5 : (⟨S100000x64, .f32⟩ : BufTy).Contents (Elt Ideal))
    (x6 : (⟨S1x64, .f32⟩ : BufTy).Contents (Elt Ideal)) (x7 : (⟨S100000x64, .f32⟩ : BufTy).Contents (Elt Ideal))
    (x8 : (⟨S100000, .f32⟩ : BufTy).Contents (Elt Ideal)) (i : Fin 4000000) :
    val_main_v44 (F := Ideal) x0 x1 x2 x3 x4 x5 x6 x7 x8 (ix1 i) = Cert.Spec.out x0 x1 x2 x3 x4 x5 x6 x7 x8 i := by
  rw [val_main_v44_apply, dot_eq, bias_gathered]
  rfl

end Cert.ReferenceIdeal.RefValue
end
-- ==== Proof.lean ====
/-
  The certificate: the scale / logistic / dot-and-bias program, which pads its interaction and pair lists to whole
  blocks and runs three pipelined regions among host gathers and an exact scatter-add, computes what the plain
  reference computes.

  Frames. Each region of the program under test loads whole blocks, computes and stores a whole block, so its frame is
  the generated one, at the word-level instance and at the ideal one; the reference has no region and its frame is its
  generated run with the result dropped. No operation was rewritten for the ideal reading, so nothing is owed for it.

  Values. At the ideal instance both results are the specification's output (Proof/Spec.lean): the reference by its
  operations read one at a time (Proof/RefValue.lean); the program under test by its three regions' outputs read off
  the run (Proof/Region0.lean, Region1.lean, Region2.lean), the host operations between them (Proof/HostReads.lean) and
  the one fact the padding leans on: a padded interaction carries the item word 20000, outside the item range, so the
  scatter drops it, and the padded outputs are cut off at the end (Proof/KernelValue.lean). The logistic is one
  function on both sides at the ideal instance, and the sums are exact, so no finiteness of the inputs is used.
-/
import proofs.«177247_j43130061586863_1_alg».proof.Defs
import proofs.«177247_j43130061586863_1_alg».proof.Proof.Gen.Kernel
import proofs.«177247_j43130061586863_1_alg».proof.Proof.Gen.Kernel.Frame
import proofs.«177247_j43130061586863_1_alg».proof.Proof.Gen.KernelIdeal
import proofs.«177247_j43130061586863_1_alg».proof.Proof.Gen.KernelIdeal.Frame
import proofs.«177247_j43130061586863_1_alg».proof.Proof.Gen.ReferenceIdeal
import proofs.«177247_j43130061586863_1_alg».proof.Proof.Gen.ReferenceIdeal.Run
import proofs.«177247_j43130061586863_1_alg».proof.Proof.Gen.ReferenceIdeal.Read
import proofs.«177247_j43130061586863_1_alg».proof.Proof.Gen.Pre_finite_inputs
import proofs.«177247_j43130061586863_1_alg».proof.Proof.KernelRun
import proofs.«177247_j43130061586863_1_alg».proof.Proof.KernelValue
import proofs.«177247_j43130061586863_1_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx

/-- The word-level program runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The same at the ideal instance. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the specification's outputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W17 m ρ c (Proc.devRef .tc Cert.KernelIdeal.main_v40),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8, Cert.ReferenceIdeal.Read.val_main_v44_eq]
  have key : ∀ j : Cert.KernelIdeal.S4000000.Idx,
      Cert.asE Cert.KernelIdeal.S4000000 (Cert.ReferenceIdeal.Read.val_main_v44 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))) j
        = Cert.asE Cert.KernelIdeal.S4000000 (Cert.KernelIdeal.Gen.W17 m ρ c (Proc.devRef .tc Cert.KernelIdeal.main_v40)) j := by
    intro j
    obtain ⟨i, rfl⟩ : ∃ i : Fin 4000000, j = ix1 i := ⟨j 0, eq_ix1 j⟩
    exact (Cert.ReferenceIdeal.RefValue.result_eq _ _ _ _ _ _ _ _ _ i).trans (Cert.KernelIdeal.KValue.result m ρ c i).symm
  exact funext key

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
